-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S1024x2048 : Shape := ⟨2, ![1024, 2048]⟩
abbrev S1024 : Shape := ⟨1, ![1024]⟩
abbrev S1x2048 : Shape := ⟨2, ![1, 2048]⟩
abbrev S1 : Shape := ⟨1, ![1]⟩
abbrev S2048x2048 : Shape := ⟨2, ![2048, 2048]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S1x2048 : S_.BroadcastsInDim S1x2048 (![] : Fin 0 → Fin S1x2048.rank)
  reducesTo_S1x2048_S_d0_1 : S1x2048.ReducesTo [0, 1] S_
  bcast_S_S1 : S_.BroadcastsInDim S1 (![] : Fin 0 → Fin S1.rank)
  reducesTo_S1_S_d0 : S1.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  main_v38

def fn_part1 {F : FTy → Type} [FloatOps F] (main_arg4 : FVec F S1x2048 .f32) (main_arg5 : FVec F S1 .f32) (main_arg6 : FVec F S2048x2048 .f32) (main_arg7 : FVec F S2048 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_v33

def fn {F : FTy → Type} [FloatOps F] (main_arg0 : FVec F S16384x2048 .f32) (main_arg1 : FVec F S16384x2048 .f32) (main_arg2 : FVec F S1024x2048 .f32) (main_arg3 : FVec F S1024 .f32) (main_arg4 : FVec F S1x2048 .f32) (main_arg5 : FVec F S1 .f32) (main_arg6 : FVec F S2048x2048 .f32) (main_arg7 : FVec F S2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S16384x2048 : Shape := ⟨2, ![16384, 2048]⟩
abbrev S1024x2048 : Shape := ⟨2, ![1024, 2048]⟩
abbrev S1024 : Shape := ⟨1, ![1024]⟩
abbrev S1x2048 : Shape := ⟨2, ![1, 2048]⟩
abbrev S1 : Shape := ⟨1, ![1]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x1024 : Shape := ⟨2, ![1, 1024]⟩
abbrev S1x1 : Shape := ⟨2, ![1, 1]⟩
abbrev S128x2048 : Shape := ⟨2, ![128, 2048]⟩
abbrev S128x1024 : Shape := ⟨2, ![128, 1024]⟩
abbrev S128 : Shape := ⟨1, ![128]⟩
abbrev S128x1 : Shape := ⟨2, ![128, 1]⟩

abbrev nBuf : Space → Nat
  | .hbm => 68
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S1024x2048, .f32⟩
  | .hbm, ⟨3, _⟩ => ⟨S1024, .f32⟩
  | .hbm, ⟨4, _⟩ => ⟨S1x2048, .f32⟩
  | .hbm, ⟨5, _⟩ => ⟨S1, .f32⟩
  | .hbm, ⟨6, _⟩ => ⟨S2048x2048, .f32⟩
  | .hbm, ⟨7, _⟩ => ⟨S2048, .f32⟩
  | .hbm, ⟨8, _⟩ => ⟨S1024, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S_, .i32⟩
  | .hbm, ⟨20, _⟩ => ⟨S1024, .i32⟩
  | .hbm, ⟨21, _⟩ => ⟨S1024, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S_, .i32⟩
  | .hbm, ⟨27, _⟩ => ⟨S2048, .i32⟩
  | .hbm, ⟨28, _⟩ => ⟨S2048, .i1⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S2048x1, .i32⟩
  | .hbm, ⟨34, _⟩ => ⟨S16384x2048, .f32⟩
  | .hbm, ⟨35, _⟩ => ⟨S_, .i32⟩
  | .hbm, ⟨36, _⟩ => ⟨S2048, .i32⟩
  | .hbm, ⟨37, _⟩ => ⟨S2048, .i1⟩
  | .hbm, ⟨38, _⟩ => ⟨S_, .i32⟩
  | .hbm, ⟨39, _⟩ => ⟨S2048, .i32⟩
  | .hbm, ⟨40, _⟩ => ⟨S2048, .i32⟩
  | .hbm, ⟨41, _⟩ => ⟨S2048, .i32⟩
  | .hbm, ⟨42, _⟩ => ⟨S2048x1, .i32⟩
  | .hbm, ⟨43, _⟩ => ⟨S2048x2048, .f32⟩
  | .hbm, ⟨44, _⟩ => ⟨S_, .i32⟩
  | .hbm, ⟨45, _⟩ => ⟨S2048, .i32⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S2048x1, .i32⟩
  | .hbm, ⟨52, _⟩ => ⟨S2048, .f32⟩
  | .hbm, ⟨53, _⟩ => ⟨S1x1024, .f32⟩
  | .hbm, ⟨54, _⟩ => ⟨S1x1, .f32⟩
  | .hbm, ⟨55, _⟩ => ⟨S1x2048, .f32⟩
  | .hbm, ⟨56, _⟩ => ⟨S1024x2048, .bf16⟩
  | .hbm, ⟨57, _⟩ => ⟨S2048x2048, .bf16⟩
  | .hbm, ⟨58, _⟩ => ⟨S16384x2048, .f32⟩
  | .hbm, ⟨59, _⟩ => ⟨S_, .i32⟩
  | .hbm, ⟨60, _⟩ => ⟨S2048, .i32⟩
  | .hbm, ⟨61, _⟩ => ⟨S2048, .i1⟩
  | .hbm, ⟨62, _⟩ => ⟨S_, .i32⟩
  | .hbm, ⟨63, _⟩ => ⟨S2048, .i32⟩
  | .hbm, ⟨64, _⟩ => ⟨S2048, .i32⟩
  | .hbm, ⟨65, _⟩ => ⟨S2048, .i32⟩
  | .hbm, ⟨66, _⟩ => ⟨S2048x1, .i32⟩
  | .hbm, ⟨67, _⟩ => ⟨S16384x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1024x2048, .bf16⟩
  | .local _ .vmem, ⟨5, _⟩ => ⟨S1x1024, .f32⟩
  | .local _ .vmem, ⟨6, _⟩ => ⟨S1x2048, .f32⟩
  | .local _ .vmem, ⟨7, _⟩ => ⟨S1x1, .f32⟩
  | .local _ .vmem, ⟨8, _⟩ => ⟨S2048x2048, .bf16⟩
  | .local _ .vmem, ⟨9, _⟩ => ⟨S1x2048, .f32⟩
  | .local _ .vmem, ⟨10, _⟩ => ⟨S128x2048, .f32⟩
  | .local _ .vmem, ⟨11, _⟩ => ⟨S128x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call0_v0 : Ref sig .tc := ⟨.hbm, 23, rfl⟩
abbrev main_call0_v1_0 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_c_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_5 : Ref sig .tc := ⟨.hbm, 35, rfl⟩
abbrev main_v19 : Ref sig .tc := ⟨.hbm, 36, rfl⟩
abbrev main_v20 : Ref sig .tc := ⟨.hbm, 37, rfl⟩
abbrev main_c_6 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_7 : Ref sig .tc := ⟨.hbm, 44, rfl⟩
abbrev main_v26 : Ref sig .tc := ⟨.hbm, 45, rfl⟩
abbrev main_v27 : Ref sig .tc := ⟨.hbm, 46, rfl⟩
abbrev main_c_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_9 : Ref sig .tc := ⟨.hbm, 59, rfl⟩
abbrev main_v39 : Ref sig .tc := ⟨.hbm, 60, rfl⟩
abbrev main_v40 : Ref sig .tc := ⟨.hbm, 61, rfl⟩
abbrev main_c_10 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S1024 : S_.BroadcastsInDim S1024 (![] : Fin 0 → Fin S1024.rank)
  concatenates_S1024_S1024_S2048_d0 : Shape.Concatenates [S1024, S1024] S2048 0
  bcast_S_S2048 : S_.BroadcastsInDim S2048 (![] : Fin 0 → Fin S2048.rank)
  bcast_S2048_S2048x1_0 : S2048.BroadcastsInDim S2048x1 (![0] : Fin 1 → Fin S2048x1.rank)
  shapeCasts_S1024_S1x1024 : S1024.ShapeCasts S1x1024
  shapeCasts_S1_S1x1 : S1.ShapeCasts S1x1
  shapeCasts_S2048_S1x2048 : S2048.ShapeCasts S1x2048
  bitsLt_bf16_f32 : FTy.bits .bf16 < FTy.bits .f32
  inb_S128x2048_S128x2048_0_0 : ∀ a, (![0, 0] : Fin 2 → Nat) a + S128x2048.size a ≤ S128x2048.size a
  h_S128x2048 : 0 < S128x2048.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S1x2048_S1x2048_0_0 : ∀ a, (![0, 0] : Fin 2 → Nat) a + S1x2048.size a ≤ S1x2048.size a
  h_S1x2048 : 0 < S1x2048.numel
  broadcasts_S1x2048_S128x2048 : S1x2048.Broadcasts S128x2048
  reduces_S128x2048_S128 : S128x2048.Reduces [1] S128
  shapeCasts_S128_S128x1 : S128.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S1x2048_S1x2048 : S1x2048.ShapeCasts S1x2048
  inb_S128x2048_S128x1024_0_0 : ∀ a, (![0, 0] : Fin 2 → Nat) a + S128x1024.size a ≤ S128x2048.size a
  h_S128x1024 : 0 < S128x1024.numel
  shapeCasts_S128x1024_S128x1024 : S128x1024.ShapeCasts S128x1024
  inb_S128x2048_S128x1024_0_1024 : ∀ a, (![0, 1024] : Fin 2 → Nat) a + S128x1024.size a ≤ S128x2048.size a
  broadcasts_S128x1_S128x1024 : S128x1.Broadcasts S128x1024
  slices_S128x2048_o0_0_S128x1024 : S128x2048.Slices ![0, 0] S128x1024
  slices_S128x2048_o0_1024_S128x1024 : S128x2048.Slices ![0, 1024] S128x1024
  gather_S16384x2048_S2048x1_S16384x2048_0_1_n_n_1_1_163841_wf : GatherDims.WF S16384x2048 S2048x1 S16384x2048 [0] [1] [] [1] [] 1 ![16384, 1]
  gather_S2048x2048_S2048x1_S2048x2048_1_0_n_n_0_1_12048_wf : GatherDims.WF S2048x2048 S2048x1 S2048x2048 [1] [0] [] [0] [] 1 ![1, 2048]
  gather_S2048_S2048x1_S2048_n_0_n_n_0_1_1_wf : GatherDims.WF S2048 S2048x1 S2048 [] [0] [] [0] [] 1 ![1]
  dot_S128x2048_S1024x2048_S128x1024_1_1_0_0_n_n_wf : DotDims.WF S128x2048 S1024x2048 S128x1024 [1] [1] [0] [0] [] []
  dot_S128x2048_S2048x2048_S128x2048_1_1_0_0_n_n_wf : DotDims.WF S128x2048 S2048x2048 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S16384x2048.size a
  hwx0_0 : ∀ i : grid0.Coords, EltTy.bits .f32 = 32 ∨ (Rect.block (s := S16384x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S16384x2048.size a
  hwx0_1 : ∀ i : grid0.Coords, EltTy.bits .f32 = 32 ∨ (Rect.block (s := S16384x2048) S128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .bf16 = 32 ∨ (Rect.block (s := S1024x2048) S1024x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x2048.size a ≤ S2048x2048.size a
  hwx0_6 : ∀ i : grid0.Coords, EltTy.bits .bf16 = 32 ∨ (Rect.block (s := S2048x2048) S2048x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x2048.size a ≤ S16384x2048.size a
  hwx0_8 : ∀ i : grid0.Coords, EltTy.bits .f32 = 32 ∨ (Rect.block (s := S16384x2048) S128x2048.size (cc0_transform_8 i) (hinb0_8 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S16384x2048_S2048x1_S16384x2048_0_1_n_n_1_1_163841 : GatherDims S16384x2048 S2048x1 S16384x2048 where
  offsetDims := [0]
  collapsedSliceDims := [1]
  operandBatchingDims := []
  startIndicesBatchingDims := []
  startIndexMap := [1]
  indexVectorDim := 1
  sliceSizes := ![16384, 1]
  wf := gather_S16384x2048_S2048x1_S16384x2048_0_1_n_n_1_1_163841_wf
def gather_S2048x2048_S2048x1_S2048x2048_1_0_n_n_0_1_12048 : GatherDims S2048x2048 S2048x1 S2048x2048 where
  offsetDims := [1]
  collapsedSliceDims := [0]
  operandBatchingDims := []
  startIndicesBatchingDims := []
  startIndexMap := [0]
  indexVectorDim := 1
  sliceSizes := ![1, 2048]
  wf := gather_S2048x2048_S2048x1_S2048x2048_1_0_n_n_0_1_12048_wf
def gather_S2048_S2048x1_S2048_n_0_n_n_0_1_1 : GatherDims S2048 S2048x1 S2048 where
  offsetDims := []
  collapsedSliceDims := [0]
  operandBatchingDims := []
  startIndicesBatchingDims := []
  startIndexMap := [0]
  indexVectorDim := 1
  sliceSizes := ![1]
  wf := gather_S2048_S2048x1_S2048_n_0_n_n_0_1_1_wf
def dot_S128x2048_S1024x2048_S128x1024_1_1_0_0_n_n : DotDims S128x2048 S1024x2048 S128x1024 where
  lhsContracting := [1]
  rhsContracting := [1]
  lhsNonContracting := [0]
  rhsNonContracting := [0]
  lhsBatch := []
  rhsBatch := []
  wf := dot_S128x2048_S1024x2048_S128x1024_1_1_0_0_n_n_wf
def dot_S128x2048_S2048x2048_S128x2048_1_1_0_0_n_n : DotDims S128x2048 S2048x2048 S128x2048 where
  lhsContracting := [1]
  rhsContracting := [1]
  lhsNonContracting := [0]
  rhsNonContracting := [0]
  lhsBatch := []
  rhsBatch := []
  wf := dot_S128x2048_S2048x2048_S128x2048_1_1_0_0_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v37) S2048x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v38) S128x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S1024x2048 : Shape := ⟨2, ![1024, 2048]⟩
abbrev S1024 : Shape := ⟨1, ![1024]⟩
abbrev S1x2048 : Shape := ⟨2, ![1, 2048]⟩
abbrev S1 : Shape := ⟨1, ![1]⟩
abbrev S2048x2048 : Shape := ⟨2, ![2048, 2048]⟩
abbrev S2048 : Shape := ⟨1, ![2048]⟩
abbrev S2048x1024 : Shape := ⟨2, ![2048, 1024]⟩
abbrev S16384x1024 : Shape := ⟨2, ![16384, 1024]⟩
abbrev S1x1024 : Shape := ⟨2, ![1, 1024]⟩
abbrev S2048x1 : Shape := ⟨2, ![2048, 1]⟩
abbrev S16384x1 : Shape := ⟨2, ![16384, 1]⟩
abbrev S1x1 : Shape := ⟨2, ![1, 1]⟩
abbrev S_ : Shape := ⟨0, ![]⟩
abbrev S16384x1024x2 : Shape := ⟨3, ![16384, 1024, 2]⟩
abbrev S16384x1024x1 : Shape := ⟨3, ![16384, 1024, 1]⟩

abbrev nBuf : Space → Nat
  | .hbm => 51
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S1024x2048, .f32⟩
  | .hbm, ⟨3, _⟩ => ⟨S1024, .f32⟩
  | .hbm, ⟨4, _⟩ => ⟨S1x2048, .f32⟩
  | .hbm, ⟨5, _⟩ => ⟨S1, .f32⟩
  | .hbm, ⟨6, _⟩ => ⟨S2048x2048, .f32⟩
  | .hbm, ⟨7, _⟩ => ⟨S2048, .f32⟩
  | .hbm, ⟨8, _⟩ => ⟨S2048x1024, .f32⟩
  | .hbm, ⟨9, _⟩ => ⟨S16384x1024, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S2048x1, .f32⟩
  | .hbm, ⟨14, _⟩ => ⟨S16384x1, .f32⟩
  | .hbm, ⟨15, _⟩ => ⟨S1x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S2048x2048, .f32⟩
  | .hbm, ⟨27, _⟩ => ⟨S16384x2048, .f32⟩
  | .hbm, ⟨28, _⟩ => ⟨S1x2048, .f32⟩
  | .hbm, ⟨29, _⟩ => ⟨S16384x2048, .f32⟩
  | .hbm, ⟨30, _⟩ => ⟨S16384x2048, .f32⟩
  | .hbm, ⟨31, _⟩ => ⟨S16384x1024x2, .f32⟩
  | .hbm, ⟨32, _⟩ => ⟨S16384x1024, .f32⟩
  | .hbm, ⟨33, _⟩ => ⟨S16384x1024, .f32⟩
  | .hbm, ⟨34, _⟩ => ⟨S16384x1024x1, .f32⟩
  | .hbm, ⟨35, _⟩ => ⟨S16384x1024, .f32⟩
  | .hbm, ⟨36, _⟩ => ⟨S16384x1024x1, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024x1, .f32⟩
  | .hbm, ⟨45, _⟩ => ⟨S16384x1024x1, .f32⟩
  | .hbm, ⟨46, _⟩ => ⟨S16384x1024x2, .f32⟩
  | .hbm, ⟨47, _⟩ => ⟨S16384x2048, .f32⟩
  | .hbm, ⟨48, _⟩ => ⟨S16384x2048, .f32⟩
  | .hbm, ⟨49, _⟩ => ⟨S16384x2048, .f32⟩
  | .hbm, ⟨50, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]

class Facts₀ : Prop where
  transposes_S1024x2048_S2048x1024_1_0 : S1024x2048.Transposes [1, 0] S2048x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  transposes_S1x2048_S2048x1_1_0 : S1x2048.Transposes [1, 0] S2048x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  transposes_S2048x2048_S2048x2048_1_0 : S2048x2048.Transposes [1, 0] S2048x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  shapeCasts_S16384x2048_S16384x1024x2 : S16384x2048.ShapeCasts S16384x1024x2
  slices_S16384x1024x2_S16384x1024x1_0_0_0 : S16384x1024x2.Slices ![0, 0, 0] S16384x1024x1
  shapeCasts_S16384x1024x1_S16384x1024 : S16384x1024x1.ShapeCasts S16384x1024
  slices_S16384x1024x2_S16384x1024x1_0_0_1 : S16384x1024x2.Slices ![0, 0, 1] S16384x1024x1
  bcast_S16384x1024_S16384x1024x1_0_1 : S16384x1024.BroadcastsInDim S16384x1024x1 (![0, 1] : Fin 2 → Fin S16384x1024x1.rank)
  concatenates_S16384x1024x1_S16384x1024x1_S16384x1024x2_d2 : Shape.Concatenates [S16384x1024x1, S16384x1024x1] S16384x1024x2 2
  shapeCasts_S16384x1024x2_S16384x2048 : S16384x1024x2.ShapeCasts S16384x2048
  bcast_S16384x1_S16384x2048_0_1 : S16384x1.BroadcastsInDim S16384x2048 (![0, 1] : Fin 2 → Fin S16384x2048.rank)
  dot_S16384x2048_S2048x1024_S16384x1024_1_0_0_1_n_n_wf : DotDims.WF S16384x2048 S2048x1024 S16384x1024 [1] [0] [0] [1] [] []
  dot_S16384x2048_S2048x1_S16384x1_1_0_0_1_n_n_wf : DotDims.WF S16384x2048 S2048x1 S16384x1 [1] [0] [0] [1] [] []
  dot_S16384x2048_S2048x2048_S16384x2048_1_0_0_1_n_n_wf : DotDims.WF S16384x2048 S2048x2048 S16384x2048 [1] [0] [0] [1] [] []

variable [Facts₀]

def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf
def dot_S16384x2048_S2048x1_S16384x1_1_0_0_1_n_n : DotDims S16384x2048 S2048x1 S16384x1 where
  lhsContracting := [1]
  rhsContracting := [0]
  lhsNonContracting := [0]
  rhsNonContracting := [1]
  lhsBatch := []
  rhsBatch := []
  wf := dot_S16384x2048_S2048x1_S16384x1_1_0_0_1_n_n_wf
def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.KBodyDefs.lean ====
/-
  One block of the permuted computation, row by row: what the kernel's body computes from the blocks it is
  handed — a row block `x0` of the input, the matching row block `x1` of the column-permuted state, and the
  whole (permuted) parameter arrays — written as plain sums and products on the extended reals.
-/
import proofs.«425456_j53661321396647_3_alg».proof.KernelIdeal
import Idealize.ShloMosaic.PureOps.Ideal
import Idealize.ShloMosaic.Lib.ValueIdx

noncomputable section

open scoped BigOperators

namespace Cert.Givens.Body

open Idealize.ShloMosaic Idealize.ShloMosaic.ValueIdx Cert.KernelIdeal

section
variable (x0 x1 : FVec Ideal S128x2048 .f32) (x2 : FVec Ideal S1024x2048 .bf16) (x3 : FVec Ideal S1x1024 .f32)
  (x4 : FVec Ideal S1x2048 .f32) (x5 : FVec Ideal S1x1 .f32) (x6 : FVec Ideal S2048x2048 .bf16)
  (x7 : FVec Ideal S1x2048 .f32)

/-- The angle of pair `q` in row `r` of the block: the row of `x0` against row `q` of `x2`, plus the bias. -/
def bAngle (r : Fin 128) (q : Fin 1024) : EReal :=
  (∑ k : Fin 2048, x0 (ix2 r k) * x2 (ix2 q k)) + x3 (ix2 (0 : Fin 1) q)

/-- The gate of row `r`: the logistic of the row of `x0` against the one row of `x4`, plus the bias. -/
def bGate (r : Fin 128) : EReal :=
  Ideal.logistic ((∑ k : Fin 2048, x0 (ix2 r k) * x4 (ix2 (0 : Fin 1) k)) + x5 (ix2 (0 : Fin 1) (0 : Fin 1)))

/-- The injection at (permuted) column `j` of row `r`: the row of `x0` against row `j` of `x6`, plus the bias. -/
def bInject (r : Fin 128) (j : Fin 2048) : EReal :=
  (∑ k : Fin 2048, x0 (ix2 r k) * x6 (ix2 j k)) + x7 (ix2 (0 : Fin 1) j)

/-- Column `q` of the first half: the first component of pair `q` rotated, gated, plus the injection. -/
def bLeft (r : Fin 128) (q : Fin 1024) : EReal :=
  bGate x0 x4 x5 r
      * (Ideal.cos (bAngle x0 x2 x3 r q) * x1 (ix2 r (⟨q.val, by omega⟩ : Fin 2048))
          - Ideal.sin (bAngle x0 x2 x3 r q) * x1 (ix2 r (⟨q.val + 1024, by omega⟩ : Fin 2048)))
    + bInject x0 x6 x7 r ⟨q.val, by omega⟩

/-- Column `1024 + q` of the second half: the second component of pair `q` rotated, gated, plus the injection. -/
def bRight (r : Fin 128) (q : Fin 1024) : EReal :=
  bGate x0 x4 x5 r
      * (Ideal.sin (bAngle x0 x2 x3 r q) * x1 (ix2 r (⟨q.val, by omega⟩ : Fin 2048))
          + Ideal.cos (bAngle x0 x2 x3 r q) * x1 (ix2 r (⟨q.val + 1024, by omega⟩ : Fin 2048)))
    + bInject x0 x6 x7 r ⟨q.val + 1024, by omega⟩

end

end Cert.Givens.Body

end
-- ==== Proof.KBody.lean ====
/-
  The kernel's body at an index: what the body leaves in its output block, read at one element, as plain sums
  and products on the extended reals.

  The body computes, from a row block `x0` of the input, an angle for every pair (the block against the ROWS of
  `x2`, plus a bias row), a gate for every row (the logistic of the row's sum against the one row of `x4`, plus
  a bias), and an injection for every column (the block against the rows of `x6`, plus a bias row). It reads the
  two halves of the state block `x1` — columns 0..1023 hold the first components of the pairs, columns
  1024..2047 the second —, rotates each pair by its angle, scales by the row's gate, adds the injection, and stores
  the first components into columns 0..1023 of the output block and the second into columns 1024..2047.

  Below: where the two half-width rectangles place an index; what the two stores leave at an index of either half;
  each payload of the body read at an index (the products as sums over the contracted axis, the lane sum as a sum
  over the row, broadcasts and casts as re-indexings); and the two theorems, one per half.
-/
import proofs.«425456_j53661321396647_3_alg».proof.Proof.Gen.KernelIdeal.Frame
import proofs.«425456_j53661321396647_3_alg».proof.Proof.KBodyDefs
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Givens.Body

open Idealize.ShloMosaic Idealize.ShloMosaic.ValueIdx Cert.KernelIdeal Cert.KernelIdeal.Gen

/-- The left half's rectangle places (r, q) at column q. -/
theorem r0_6_idx (r : Fin 128) (q : Fin 1024) :
    r0_6.idx (ix2 r q) = ix2 r (⟨q.val, by omega⟩ : Fin 2048) := by
  funext a; refine Fin.ext ?_
  match a with
  | ⟨0, _⟩ => show 0 + 1 * r.val = r.val; omega
  | ⟨1, _⟩ => show 0 + 1 * q.val = q.val; omega

/-- The right half's rectangle places (r, q) at column 1024 + q. -/
theorem r0_7_idx (r : Fin 128) (q : Fin 1024) :
    r0_7.idx (ix2 r q) = ix2 r (⟨q.val + 1024, by omega⟩ : Fin 2048) := by
  funext a; refine Fin.ext ?_
  match a with
  | ⟨0, _⟩ => show 0 + 1 * r.val = r.val; omega
  | ⟨1, _⟩ => show 1024 + 1 * q.val = q.val + 1024; omega

/-- A column below 1024 is not under the right half's rectangle. -/
theorem not_mem_r0_7 (r : Fin 128) (q : Fin 1024) :
    ix2 r (⟨q.val, by omega⟩ : Fin 2048) ∉ r0_7.set := by
  rw [Rect.mem_set_unit]
  intro h
  have h1 := (h (1 : Fin 2)).1
  have h2 : (1024 : ℕ) ≤ q.val := h1
  omega

/-- The two stores, last first, read in the first half: the earlier store's payload. -/
theorem canon_left (p2 p1 : FVec Ideal S128x1024 .f32) (r : Fin 128) (q : Fin 1024) :
    View.canon (Val := Elt Ideal) (e := EltTy.f32) [⟨r0_7, p2⟩, ⟨r0_6, p1⟩] (ix2 r (⟨q.val, by omega⟩ : Fin 2048)) = p1 (ix2 r q) := by
  rw [View.canon_cons_of_not_mem (Val := Elt Ideal) (e := EltTy.f32) ⟨r0_7, p2⟩ [⟨r0_6, p1⟩] (not_mem_r0_7 r q)]
  have h := View.canon_cons_emb (Val := Elt Ideal) (e := EltTy.f32) r0_6 p1 [] (ix2 r q)
  rw [show r0_6.emb (ix2 r q) = ix2 r (⟨q.val, by omega⟩ : Fin 2048) from r0_6_idx r q] at h
  exact h

/-- The two stores, last first, read in the second half: the last store's payload. -/
theorem canon_right (p2 p1 : FVec Ideal S128x1024 .f32) (r : Fin 128) (q : Fin 1024) :
    View.canon (Val := Elt Ideal) (e := EltTy.f32) [⟨r0_7, p2⟩, ⟨r0_6, p1⟩] (ix2 r (⟨q.val + 1024, by omega⟩ : Fin 2048)) = p2 (ix2 r q) := by
  have h := View.canon_cons_emb (Val := Elt Ideal) (e := EltTy.f32) r0_7 p2 [⟨r0_6, p1⟩] (ix2 r q)
  rw [show r0_7.emb (ix2 r q) = ix2 r (⟨q.val + 1024, by omega⟩ : Fin 2048) from r0_7_idx r q] at h
  exact h

/-- A load of the first half of a block reads column q. -/
theorem ld_r0_6 (x : FVec Ideal S128x2048 .f32) (r : Fin 128) (q : Fin 1024) :
    View.ld (Val := Elt Ideal) (e' := EltTy.f32) x r0_6 (ix2 r q) = x (ix2 r (⟨q.val, by omega⟩ : Fin 2048)) :=
  congrArg x (r0_6_idx r q)

/-- A load of the second half reads column 1024 + q. -/
theorem ld_r0_7 (x : FVec Ideal S128x2048 .f32) (r : Fin 128) (q : Fin 1024) :
    View.ld (Val := Elt Ideal) (e' := EltTy.f32) x r0_7 (ix2 r q) = x (ix2 r (⟨q.val + 1024, by omega⟩ : Fin 2048)) :=
  congrArg x (r0_7_idx r q)

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first store's payload at (r, q): the gate of row r times the rotated first component, plus the
    injection's column q. -/
theorem pay1_apply (v24 : FVec Ideal S128x2048 .f32) (v25 : FVec Ideal S128x1 .f32) (v34 : FVec Ideal S128x1024 .f32)
    (r : Fin 128) (q : Fin 1024) :
    k0_pay1 (F := Ideal) v24 v25 v34 (ix2 r q)
      = v25 (ix2 r (0 : Fin 1)) * v34 (ix2 r q) + v24 (ix2 r (⟨q.val, by omega⟩ : Fin 2048)) := by
  show broadcastTo S128x1024 v25 broadcasts_S128x1_S128x1024 (ix2 r q) * v34 (ix2 r q)
      + extractStridedSlice S128x1024 ![0, 0] v24 slices_S128x2048_o0_0_S128x1024 (ix2 r q) = _
  rw [broadcastTo_a1_ab_apply,
    slice2_axis1_apply 0 v24 slices_S128x2048_o0_0_S128x1024 r q ⟨q.val, by omega⟩ (by show q.val = 0 + q.val; omega)]

/-- The second store's payload at (r, q): the gate of row r times the rotated second component, plus the
    injection's column 1024 + q. -/
theorem pay2_apply (v24 : FVec Ideal S128x2048 .f32) (v25 : FVec Ideal S128x1 .f32) (v37 : FVec Ideal S128x1024 .f32)
    (r : Fin 128) (q : Fin 1024) :
    k0_pay2 (F := Ideal) v24 v25 v37 (ix2 r q)
      = v25 (ix2 r (0 : Fin 1)) * v37 (ix2 r q) + v24 (ix2 r (⟨q.val + 1024, by omega⟩ : Fin 2048)) := by
  show broadcastTo S128x1024 v25 broadcasts_S128x1_S128x1024 (ix2 r q) * v37 (ix2 r q)
      + extractStridedSlice S128x1024 ![0, 1024] v24 slices_S128x2048_o0_1024_S128x1024 (ix2 r q) = _
  rw [broadcastTo_a1_ab_apply,
    slice2_axis1_apply 1024 v24 slices_S128x2048_o0_1024_S128x1024 r q ⟨q.val + 1024, by omega⟩ (by show q.val + 1024 = 1024 + q.val; omega)]

/-- Row coordinate of the left operand's index: the result's row. -/
theorem lhs_angle_0 (i : S128x1024.Idx) (k : dot_S128x2048_S1024x2048_S128x1024_1_1_0_0_n_n.contr.Idx) :
    (dot_S128x2048_S1024x2048_S128x1024_1_1_0_0_n_n.lhsIdx i k 0).val = (i 0).val := by
  unfold DotDims.lhsIdx
  rw [dif_neg (show ¬(0 : Fin S128x2048.rank) ∈ dot_S128x2048_S1024x2048_S128x1024_1_1_0_0_n_n.lhsBatch by decide), dif_pos (show (0 : Fin S128x2048.rank) ∈ dot_S128x2048_S1024x2048_S128x1024_1_1_0_0_n_n.lhsNonContracting by decide)]
  rfl
/-- Column coordinate of the left operand's index: the contraction position. -/
theorem lhs_angle_1 (i : S128x1024.Idx) (k : dot_S128x2048_S1024x2048_S128x1024_1_1_0_0_n_n.contr.Idx) :
    (dot_S128x2048_S1024x2048_S128x1024_1_1_0_0_n_n.lhsIdx i k 1).val = (k ⟨0, by decide⟩).val :=
  dot_S128x2048_S1024x2048_S128x1024_1_1_0_0_n_n.lhsIdx_val_of_single rfl i k
/-- Row coordinate of the right operand's index: the result's column. -/
theorem rhs_angle_0 (i : S128x1024.Idx) (k : dot_S128x2048_S1024x2048_S128x1024_1_1_0_0_n_n.contr.Idx) :
    (dot_S128x2048_S1024x2048_S128x1024_1_1_0_0_n_n.rhsIdx i k 0).val = (i 1).val := by
  unfold DotDims.rhsIdx
  rw [dif_neg (show ¬(0 : Fin S1024x2048.rank) ∈ dot_S128x2048_S1024x2048_S128x1024_1_1_0_0_n_n.rhsBatch by decide), dif_pos (show (0 : Fin S1024x2048.rank) ∈ dot_S128x2048_S1024x2048_S128x1024_1_1_0_0_n_n.rhsNonContracting by decide)]
  rfl
/-- Column coordinate of the right operand's index: the contraction position. -/
theorem rhs_angle_1 (i : S128x1024.Idx) (k : dot_S128x2048_S1024x2048_S128x1024_1_1_0_0_n_n.contr.Idx) :
    (dot_S128x2048_S1024x2048_S128x1024_1_1_0_0_n_n.rhsIdx i k 1).val = (k ⟨0, by decide⟩).val :=
  dot_S128x2048_S1024x2048_S128x1024_1_1_0_0_n_n.rhsIdx_val_of_single rfl i k

/-- The angle product at (r, q), onto a zero accumulator: row r of the left operand against ROW q of the right one
    (both operands are contracted along their last axis). -/
theorem matmul_angle_apply (a : FVec Ideal S128x2048 .bf16) (b : FVec Ideal S1024x2048 .bf16) (r : Fin 128) (q : Fin 1024) :
    matmul (F := Ideal) dot_S128x2048_S1024x2048_S128x1024_1_1_0_0_n_n none a b (constant (F := Ideal) S128x1024 .f32 0x00000000#32) (ix2 r q)
      = ∑ k : Fin 2048, a (ix2 r k) * b (ix2 q k) := by
  show FloatOps.matmul dot_S128x2048_S1024x2048_S128x1024_1_1_0_0_n_n none a b (constant (F := Ideal) S128x1024 .f32 0x00000000#32) (ix2 r q) = _
  rw [Ideal.matmul_constant_zero_apply, ← Equiv.sum_comp (contrEquiv1 dot_S128x2048_S1024x2048_S128x1024_1_1_0_0_n_n 2048 rfl rfl).symm]
  refine Finset.sum_congr rfl fun k _ => ?_
  have hk := contrEquiv1_symm_val dot_S128x2048_S1024x2048_S128x1024_1_1_0_0_n_n 2048 rfl rfl k
  have el : dot_S128x2048_S1024x2048_S128x1024_1_1_0_0_n_n.lhsIdx (ix2 r q) ((contrEquiv1 dot_S128x2048_S1024x2048_S128x1024_1_1_0_0_n_n 2048 rfl rfl).symm k) = ix2 r k := funext fun ax => Fin.ext (by
    match ax with
    | ⟨0, _⟩ => exact lhs_angle_0 _ _
    | ⟨1, _⟩ => exact (lhs_angle_1 _ _).trans hk)
  have er : dot_S128x2048_S1024x2048_S128x1024_1_1_0_0_n_n.rhsIdx (ix2 r q) ((contrEquiv1 dot_S128x2048_S1024x2048_S128x1024_1_1_0_0_n_n 2048 rfl rfl).symm k) = ix2 q k := funext fun ax => Fin.ext (by
    match ax with
    | ⟨0, _⟩ => exact rhs_angle_0 _ _
    | ⟨1, _⟩ => exact (rhs_angle_1 _ _).trans hk)
  rw [el, er]

/-- Row coordinate of the left operand's index: the result's row. -/
theorem lhs_inject_0 (i : S128x2048.Idx) (k : dot_S128x2048_S2048x2048_S128x2048_1_1_0_0_n_n.contr.Idx) :
    (dot_S128x2048_S2048x2048_S128x2048_1_1_0_0_n_n.lhsIdx i k 0).val = (i 0).val := by
  unfold DotDims.lhsIdx
  rw [dif_neg (show ¬(0 : Fin S128x2048.rank) ∈ dot_S128x2048_S2048x2048_S128x2048_1_1_0_0_n_n.lhsBatch by decide), dif_pos (show (0 : Fin S128x2048.rank) ∈ dot_S128x2048_S2048x2048_S128x2048_1_1_0_0_n_n.lhsNonContracting by decide)]
  rfl
/-- Column coordinate of the left operand's index: the contraction position. -/
theorem lhs_inject_1 (i : S128x2048.Idx) (k : dot_S128x2048_S2048x2048_S128x2048_1_1_0_0_n_n.contr.Idx) :
    (dot_S128x2048_S2048x2048_S128x2048_1_1_0_0_n_n.lhsIdx i k 1).val = (k ⟨0, by decide⟩).val :=
  dot_S128x2048_S2048x2048_S128x2048_1_1_0_0_n_n.lhsIdx_val_of_single rfl i k
/-- Row coordinate of the right operand's index: the result's column. -/
theorem rhs_inject_0 (i : S128x2048.Idx) (k : dot_S128x2048_S2048x2048_S128x2048_1_1_0_0_n_n.contr.Idx) :
    (dot_S128x2048_S2048x2048_S128x2048_1_1_0_0_n_n.rhsIdx i k 0).val = (i 1).val := by
  unfold DotDims.rhsIdx
  rw [dif_neg (show ¬(0 : Fin S2048x2048.rank) ∈ dot_S128x2048_S2048x2048_S128x2048_1_1_0_0_n_n.rhsBatch by decide), dif_pos (show (0 : Fin S2048x2048.rank) ∈ dot_S128x2048_S2048x2048_S128x2048_1_1_0_0_n_n.rhsNonContracting by decide)]
  rfl
/-- Column coordinate of the right operand's index: the contraction position. -/
theorem rhs_inject_1 (i : S128x2048.Idx) (k : dot_S128x2048_S2048x2048_S128x2048_1_1_0_0_n_n.contr.Idx) :
    (dot_S128x2048_S2048x2048_S128x2048_1_1_0_0_n_n.rhsIdx i k 1).val = (k ⟨0, by decide⟩).val :=
  dot_S128x2048_S2048x2048_S128x2048_1_1_0_0_n_n.rhsIdx_val_of_single rfl i k

/-- The injection product at (r, q), onto a zero accumulator: row r of the left operand against ROW q of the right one
    (both operands are contracted along their last axis). -/
theorem matmul_inject_apply (a : FVec Ideal S128x2048 .bf16) (b : FVec Ideal S2048x2048 .bf16) (r : Fin 128) (q : Fin 2048) :
    matmul (F := Ideal) dot_S128x2048_S2048x2048_S128x2048_1_1_0_0_n_n none a b (constant (F := Ideal) S128x2048 .f32 0x00000000#32) (ix2 r q)
      = ∑ k : Fin 2048, a (ix2 r k) * b (ix2 q k) := by
  show FloatOps.matmul dot_S128x2048_S2048x2048_S128x2048_1_1_0_0_n_n none a b (constant (F := Ideal) S128x2048 .f32 0x00000000#32) (ix2 r q) = _
  rw [Ideal.matmul_constant_zero_apply, ← Equiv.sum_comp (contrEquiv1 dot_S128x2048_S2048x2048_S128x2048_1_1_0_0_n_n 2048 rfl rfl).symm]
  refine Finset.sum_congr rfl fun k _ => ?_
  have hk := contrEquiv1_symm_val dot_S128x2048_S2048x2048_S128x2048_1_1_0_0_n_n 2048 rfl rfl k
  have el : dot_S128x2048_S2048x2048_S128x2048_1_1_0_0_n_n.lhsIdx (ix2 r q) ((contrEquiv1 dot_S128x2048_S2048x2048_S128x2048_1_1_0_0_n_n 2048 rfl rfl).symm k) = ix2 r k := funext fun ax => Fin.ext (by
    match ax with
    | ⟨0, _⟩ => exact lhs_inject_0 _ _
    | ⟨1, _⟩ => exact (lhs_inject_1 _ _).trans hk)
  have er : dot_S128x2048_S2048x2048_S128x2048_1_1_0_0_n_n.rhsIdx (ix2 r q) ((contrEquiv1 dot_S128x2048_S2048x2048_S128x2048_1_1_0_0_n_n 2048 rfl rfl).symm k) = ix2 q k := funext fun ax => Fin.ext (by
    match ax with
    | ⟨0, _⟩ => exact rhs_inject_0 _ _
    | ⟨1, _⟩ => exact (rhs_inject_1 _ _).trans hk)
  rw [el, er]

/-- The angle of pair q in row r: the payload `k0_pay4` at (r, q). The narrowing of the row block and the shape
    casts to the same shape change nothing on the extended reals; the bias is one row broadcast down the block. -/
theorem pay4_apply (x0 : FVec Ideal S128x2048 .f32) (x2 : FVec Ideal S1024x2048 .bf16) (x3 : FVec Ideal S1x1024 .f32)
    (r : Fin 128) (q : Fin 1024) :
    k0_pay4 (F := Ideal) x0 x2 x3 (ix2 r q) = bAngle x0 x2 x3 r q := by
  show matmul (F := Ideal) dot_S128x2048_S1024x2048_S128x1024_1_1_0_0_n_n none (truncf .bf16 x0 bitsLt_bf16_f32)
        (shapeCast S1024x2048 x2 shapeCasts_S1024x2048_S1024x2048) (constant (F := Ideal) S128x1024 .f32 0x00000000#32) (ix2 r q)
      + broadcastTo S128x1024 (shapeCast S1x1024 x3 shapeCasts_S1x1024_S1x1024) broadcasts_S1x1024_S128x1024 (ix2 r q) = _
  rw [shapeCast_self, shapeCast_self, matmul_angle_apply, broadcastTo_1b_ab_apply]
  rfl

/-- The injection at column j of row r: the payload `k0_pay5` at (r, j). -/
theorem pay5_apply (x0 : FVec Ideal S128x2048 .f32) (x6 : FVec Ideal S2048x2048 .bf16) (x7 : FVec Ideal S1x2048 .f32)
    (r : Fin 128) (j : Fin 2048) :
    k0_pay5 (F := Ideal) x0 x6 x7 (ix2 r j) = bInject x0 x6 x7 r j := by
  show matmul (F := Ideal) dot_S128x2048_S2048x2048_S128x2048_1_1_0_0_n_n none (truncf .bf16 x0 bitsLt_bf16_f32)
        (shapeCast S2048x2048 x6 shapeCasts_S2048x2048_S2048x2048) (constant (F := Ideal) S128x2048 .f32 0x00000000#32) (ix2 r j)
      + broadcastTo S128x2048 (shapeCast S1x2048 x7 shapeCasts_S1x2048_S1x2048) broadcasts_S1x2048_S128x2048 (ix2 r j) = _
  rw [shapeCast_self, shapeCast_self, matmul_inject_apply, broadcastTo_1b_ab_apply]
  rfl

/-- The rotated first component of pair q in row r: cos(angle) · first − sin(angle) · second. -/
theorem pay11_apply (x0 : FVec Ideal S128x2048 .f32) (x2 : FVec Ideal S1024x2048 .bf16) (x3 : FVec Ideal S1x1024 .f32)
    (a b : FVec Ideal S128x1024 .f32) (r : Fin 128) (q : Fin 1024) :
    k0_pay11 (F := Ideal) x0 x2 x3 a b (ix2 r q)
      = Ideal.cos (bAngle x0 x2 x3 r q) * a (ix2 r q) - Ideal.sin (bAngle x0 x2 x3 r q) * b (ix2 r q) := by
  rw [← pay4_apply]
  show Ideal.cos (k0_pay4 (F := Ideal) x0 x2 x3 (ix2 r q)) * shapeCast S128x1024 a shapeCasts_S128x1024_S128x1024 (ix2 r q)
      - Ideal.sin (k0_pay4 (F := Ideal) x0 x2 x3 (ix2 r q)) * shapeCast S128x1024 b shapeCasts_S128x1024_S128x1024 (ix2 r q) = _
  rw [shapeCast_self, shapeCast_self]

/-- The rotated second component of pair q in row r: sin(angle) · first + cos(angle) · second. -/
theorem pay12_apply (x0 : FVec Ideal S128x2048 .f32) (x2 : FVec Ideal S1024x2048 .bf16) (x3 : FVec Ideal S1x1024 .f32)
    (a b : FVec Ideal S128x1024 .f32) (r : Fin 128) (q : Fin 1024) :
    k0_pay12 (F := Ideal) x0 x2 x3 a b (ix2 r q)
      = Ideal.sin (bAngle x0 x2 x3 r q) * a (ix2 r q) + Ideal.cos (bAngle x0 x2 x3 r q) * b (ix2 r q) := by
  rw [← pay4_apply]
  show Ideal.sin (k0_pay4 (F := Ideal) x0 x2 x3 (ix2 r q)) * shapeCast S128x1024 a shapeCasts_S128x1024_S128x1024 (ix2 r q)
      + Ideal.cos (k0_pay4 (F := Ideal) x0 x2 x3 (ix2 r q)) * shapeCast S128x1024 b shapeCasts_S128x1024_S128x1024 (ix2 r q) = _
  rw [shapeCast_self, shapeCast_self]

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The lane sum of a block along its second axis, at row r: the sum of the row. -/
theorem laneSum_apply (v : FVec Ideal S128x2048 .f32) (hφ : FKind.Formats .f32)
    (hacc : (0x00000000#32 : BitVec 32) = 0x00000000#32) (r : Fin 128) :
    multiReduction (F := Ideal) .add [1] S128 v 0x00000000#32 reduces_S128x2048_S128 hφ hacc (ix1 r)
      = ∑ k : Fin 2048, v (ix2 r k) := by
  refine (Ideal.multiReduction_add_single v 0x00000000#32 reduces_S128x2048_S128 hφ hacc (ix1 r)).trans ?_
  refine Finset.sum_congr rfl fun k _ => congrArg v ?_
  funext ax
  match ax with
  | ⟨0, _⟩ => rfl
  | ⟨1, _⟩ => rfl

/-- The gate of row r: the payload `k0_pay6` at (r, 0) — the logistic of the row's lane sum against the one row
    of the weights, kept as a column, plus the one bias broadcast down it. -/
theorem pay6_apply (x0 : FVec Ideal S128x2048 .f32) (x4 : FVec Ideal S1x2048 .f32) (x5 : FVec Ideal S1x1 .f32)
    (r : Fin 128) :
    k0_pay6 (F := Ideal) x0 x4 x5 (ix2 r (0 : Fin 1)) = bGate x0 x4 x5 r := by
  show Ideal.logistic
      (shapeCast S128x1 (multiReduction (F := Ideal) .add [1] S128 (mulf x0 (broadcastTo S128x2048 x4 broadcasts_S1x2048_S128x2048))
          0x00000000#32 reduces_S128x2048_S128 (.inl rfl) rfl) shapeCasts_S128_S128x1 (ix2 r (0 : Fin 1))
        + broadcastTo S128x1 (shapeCast S1x1 x5 shapeCasts_S1x1_S1x1) broadcasts_S1x1_S128x1 (ix2 r (0 : Fin 1))) = _
  rw [shapeCast_self, shapeCast_a_a1_apply, laneSum_apply, broadcastTo_1b_ab_apply]
  unfold bGate
  refine congrArg (fun s => Ideal.logistic (s + x5 (ix2 (0 : Fin 1) (0 : Fin 1)))) ?_
  refine Finset.sum_congr rfl fun k _ => ?_
  rw [mulf_apply, broadcastTo_1b_ab_apply]

/-- The zero offsets, however spelt. -/
theorem off_zero2 : (![0, 0] : Fin 2 → ℕ) = fun _ => 0 := by
  funext a; match a with | ⟨0, _⟩ => rfl | ⟨1, _⟩ => rfl

/-- A load of a whole block reads the block (one lemma per block shape of the body's whole-block loads). -/
theorem ld_r0_0 (x : FVec Ideal S128x2048 .f32) : View.ld (Val := Elt Ideal) (e' := EltTy.f32) x r0_0 = x :=
  View.ld_unit_zero (Val := Elt Ideal) (S := S128x2048) (e := EltTy.f32) off_zero2 inb_S128x2048_S128x2048_0_0 x
theorem ld_r0_1 (x : FVec Ideal S1024x2048 .bf16) : View.ld (Val := Elt Ideal) (e' := EltTy.bf16) x r0_1 = x :=
  View.ld_unit_zero (Val := Elt Ideal) (S := S1024x2048) (e := EltTy.bf16) off_zero2 inb_S1024x2048_S1024x2048_0_0 x
theorem ld_r0_2 (x : FVec Ideal S1x1024 .f32) : View.ld (Val := Elt Ideal) (e' := EltTy.f32) x r0_2 = x :=
  View.ld_unit_zero (Val := Elt Ideal) (S := S1x1024) (e := EltTy.f32) off_zero2 inb_S1x1024_S1x1024_0_0 x
theorem ld_r0_3 (x : FVec Ideal S1x2048 .f32) : View.ld (Val := Elt Ideal) (e' := EltTy.f32) x r0_3 = x :=
  View.ld_unit_zero (Val := Elt Ideal) (S := S1x2048) (e := EltTy.f32) off_zero2 inb_S1x2048_S1x2048_0_0 x
theorem ld_r0_4 (x : FVec Ideal S1x1 .f32) : View.ld (Val := Elt Ideal) (e' := EltTy.f32) x r0_4 = x :=
  View.ld_unit_zero (Val := Elt Ideal) (S := S1x1) (e := EltTy.f32) off_zero2 inb_S1x1_S1x1_0_0 x
theorem ld_r0_5 (x : FVec Ideal S2048x2048 .bf16) : View.ld (Val := Elt Ideal) (e' := EltTy.bf16) x r0_5 = x :=
  View.ld_unit_zero (Val := Elt Ideal) (S := S2048x2048) (e := EltTy.bf16) off_zero2 inb_S2048x2048_S2048x2048_0_0 x

section
variable (x0 x1 : FVec Ideal S128x2048 .f32) (x2 : FVec Ideal S1024x2048 .bf16) (x3 : FVec Ideal S1x1024 .f32)
  (x4 : FVec Ideal S1x2048 .f32) (x5 : FVec Ideal S1x1 .f32) (x6 : FVec Ideal S2048x2048 .bf16)
  (x7 : FVec Ideal S1x2048 .f32)

/-- Column q of the first half of the block. -/
theorem out0_8_left (r : Fin 128) (q : Fin 1024) :
    out0_8 (F := Ideal) x0 x1 x2 x3 x4 x5 x6 x7 (ix2 r (⟨q.val, by omega⟩ : Fin 2048))
      = bLeft x0 x1 x2 x3 x4 x5 x6 x7 r q := by
  unfold out0_8
  rw [canon_left, ld_r0_0, ld_r0_1, ld_r0_2, ld_r0_3 x4, ld_r0_3 x7, ld_r0_4, ld_r0_5,
    pay1_apply, pay6_apply, pay11_apply, pay5_apply, ld_r0_6, ld_r0_7]
  rfl

/-- Column 1024 + q of the second half. -/
theorem out0_8_right (r : Fin 128) (q : Fin 1024) :
    out0_8 (F := Ideal) x0 x1 x2 x3 x4 x5 x6 x7 (ix2 r (⟨q.val + 1024, by omega⟩ : Fin 2048))
      = bRight x0 x1 x2 x3 x4 x5 x6 x7 r q := by
  unfold out0_8
  rw [canon_right, ld_r0_0, ld_r0_1, ld_r0_2, ld_r0_3 x4, ld_r0_3 x7, ld_r0_4, ld_r0_5,
    pay2_apply, pay6_apply, pay12_apply, pay5_apply, ld_r0_6, ld_r0_7]
  rfl

end

end Cert.Givens.Body

end
-- ==== Proof.KArrays.lean ====
/-
  The arrays the pallas_call is handed, as the region finds them, each named by its literal type: the input,
  the column-permuted state, the two weight matrices (the second row-permuted), the decay row, and the three biases
  as rows.
-/
import proofs.«425456_j53661321396647_3_alg».proof.Proof.Gen.KernelIdeal.Frame
import Idealize.ShloMosaic.PureOps.Ideal

noncomputable section

namespace Cert.Givens.Kernel

open Idealize.ShloMosaic Idealize.ShloMosaic.TcCoe Idealize.SL.Sem
open Cert.KernelIdeal Cert.KernelIdeal.Gen

variable (m : (ℓ : Loc nD τ sig) → Buf (Elt Ideal) ℓ)

/-- The input `x`. -/
abbrev arrX (c : Dev nD) : FVec Ideal S16384x2048 .f32 := V m c main_arg0
/-- The state, its columns permuted. -/
abbrev arrH (c : Dev nD) : FVec Ideal S16384x2048 .f32 := V m c main_v18
/-- The angle weights. -/
abbrev arrWa (c : Dev nD) : FVec Ideal S1024x2048 .bf16 := V m c main_v36
/-- The angle bias, as a row. -/
abbrev arrBa (c : Dev nD) : FVec Ideal S1x1024 .f32 := V m c main_v33
/-- The decay weights (one row). -/
abbrev arrWd (c : Dev nD) : FVec Ideal S1x2048 .f32 := V m c main_arg4
/-- The decay bias, as a 1×1 array. -/
abbrev arrBd (c : Dev nD) : FVec Ideal S1x1 .f32 := V m c main_v34
/-- The injection weights, their rows permuted. -/
abbrev arrWi (c : Dev nD) : FVec Ideal S2048x2048 .bf16 := V m c main_v37
/-- The injection bias, permuted, as a row. -/
abbrev arrBi (c : Dev nD) : FVec Ideal S1x2048 .f32 := V m c main_v35

end Cert.Givens.Kernel

end
-- ==== Proof.KFinal.lean ====
/-
  The permuted computation on whole arrays, and the frame's output array as that function.

  The pallas_call hands the body row block `t` (128 rows) of the input and of the column-permuted state, and the
  whole parameter arrays; the body writes row block `t` of the result. Row `128·t + r` of the result array is
  therefore the body's row `r` at point `t`: the same sums, taken over row `128·t + r` of the two big arrays.
  The 128 row blocks tile the array, so after the run the result array is that function everywhere.
-/
import proofs.«425456_j53661321396647_3_alg».proof.Proof.Gen.KernelIdeal.Frame
import proofs.«425456_j53661321396647_3_alg».proof.Proof.KBody
import proofs.«425456_j53661321396647_3_alg».proof.Proof.KArrays
import Idealize.ShloMosaic.Lib.Pipeline.Value
import Idealize.ShloMosaic.Lib.ValueIdx

set_option maxRecDepth 16384

noncomputable section

open scoped BigOperators

namespace Cert.Givens.Kernel

open Idealize.ShloMosaic Idealize.ShloMosaic.TcCoe Idealize.ShloMosaic.ValueIdx Idealize.SL.Sem
open Cert.KernelIdeal Cert.KernelIdeal.Gen Cert.Givens.Body
open Idealize.ShloMosaic.Pipeline (Dat)

/-! ## The permuted computation on whole arrays -/

section perm
variable (a0 a1 : FVec Ideal S16384x2048 .f32) (a2 : FVec Ideal S1024x2048 .bf16) (a3 : FVec Ideal S1x1024 .f32)
  (a4 : FVec Ideal S1x2048 .f32) (a5 : FVec Ideal S1x1 .f32) (a6 : FVec Ideal S2048x2048 .bf16)
  (a7 : FVec Ideal S1x2048 .f32)

/-- The angle of pair `q` in batch row `b`. -/
def pAngle (b : Fin 16384) (q : Fin 1024) : EReal :=
  (∑ k : Fin 2048, a0 (ix2 b k) * a2 (ix2 q k)) + a3 (ix2 (0 : Fin 1) q)

/-- The gate of batch row `b`. -/
def pGate (b : Fin 16384) : EReal :=
  Ideal.logistic ((∑ k : Fin 2048, a0 (ix2 b k) * a4 (ix2 (0 : Fin 1) k)) + a5 (ix2 (0 : Fin 1) (0 : Fin 1)))

/-- The injection at permuted column `j`. -/
def pInject (b : Fin 16384) (j : Fin 2048) : EReal :=
  (∑ k : Fin 2048, a0 (ix2 b k) * a6 (ix2 j k)) + a7 (ix2 (0 : Fin 1) j)

/-- Permuted column `q` of the first half. -/
def pLeft (b : Fin 16384) (q : Fin 1024) : EReal :=
  pGate a0 a4 a5 b
      * (Ideal.cos (pAngle a0 a2 a3 b q) * a1 (ix2 b (⟨q.val, by omega⟩ : Fin 2048))
          - Ideal.sin (pAngle a0 a2 a3 b q) * a1 (ix2 b (⟨q.val + 1024, by omega⟩ : Fin 2048)))
    + pInject a0 a6 a7 b ⟨q.val, by omega⟩

/-- Permuted column `1024 + q` of the second half. -/
def pRight (b : Fin 16384) (q : Fin 1024) : EReal :=
  pGate a0 a4 a5 b
      * (Ideal.sin (pAngle a0 a2 a3 b q) * a1 (ix2 b (⟨q.val, by omega⟩ : Fin 2048))
          + Ideal.cos (pAngle a0 a2 a3 b q) * a1 (ix2 b (⟨q.val + 1024, by omega⟩ : Fin 2048)))
    + pInject a0 a6 a7 b ⟨q.val + 1024, by omega⟩

/-- The result in the permuted column order. -/
def pOut : FVec Ideal S16384x2048 .f32 := fun i =>
  if h : (i 1).val < 1024 then pLeft a0 a1 a2 a3 a4 a5 a6 a7 (i 0) ⟨(i 1).val, h⟩
  else pRight a0 a1 a2 a3 a4 a5 a6 a7 (i 0) ⟨(i 1).val - 1024, by have := idx2_lt1 i; omega⟩

end perm

/-! ## The frame's result array -/

section frame
variable (m : (ℓ : Loc nD τ sig) → Buf (Elt Ideal) ℓ)

/-- The result array in the permuted order, of the region's operand arrays as the region finds them. -/
abbrev permResult (c : Dev nD) : FVec Ideal S16384x2048 .f32 :=
  pOut (arrX m c) (arrH m c) (arrWa m c) (arrBa m c) (arrWd m c) (arrBd m c) (arrWi m c) (arrBi m c)

/-- The printed index maps over the grid: the three row-blocked windows are at block row `t`, column block 0;
    the whole-array windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem hz : (![0, 0] : Fin 2 → Nat) = fun _ => 0 := funext fun a => by fin_cases a <;> rfl

theorem point_lt (t : Fin cfg0.N) : t.val < 128 := by
  have hN : cfg0.N = 128 := N_0
  have := t.isLt
  omega

/-- Row `128·t + r` of the array. -/
def rowOf (t : Fin cfg0.N) (r : Fin 128) : Fin 16384 := ⟨t.val * 128 + r.val, by have := point_lt t; omega⟩

/-! ## Each window's block at a point, read at an index -/

theorem iblk0_apply (c : Dev nD) (t : Fin cfg0.N) (r : Fin 128) (k : Fin 2048) :
    iblk m c 0 t (ix2 r k) = arrX m c (ix2 (rowOf t r) k) := by
  show V m c main_arg0 (((cfg0.win 0).blk t).view.emb (ix2 r k)) = _
  refine congrArg _ (funext fun a => Fin.ext ?_)
  obtain ⟨e0, e1, -⟩ := idx_facts t
  match a with
  | ⟨0, _⟩ => show win0_0.index t (0 : Fin 2) * 128 + 1 * r.val = t.val * 128 + r.val; omega
  | ⟨1, _⟩ => show win0_0.index t (1 : Fin 2) * 2048 + 1 * k.val = k.val; omega

theorem iblk1_apply (c : Dev nD) (t : Fin cfg0.N) (r : Fin 128) (k : Fin 2048) :
    iblk m c 1 t (ix2 r k) = arrH m c (ix2 (rowOf t r) k) := by
  show V m c main_v18 (((cfg0.win 1).blk t).view.emb (ix2 r k)) = _
  refine congrArg _ (funext fun a => Fin.ext ?_)
  obtain ⟨-, -, e0, e1, -⟩ := idx_facts t
  match a with
  | ⟨0, _⟩ => show win0_1.index t (0 : Fin 2) * 128 + 1 * r.val = t.val * 128 + r.val; omega
  | ⟨1, _⟩ => show win0_1.index t (1 : Fin 2) * 2048 + 1 * k.val = k.val; omega

theorem iblk2_eq (c : Dev nD) (t : Fin cfg0.N) : iblk m c 2 t = arrWa m c := by
  funext y
  show V m c main_v36 (((cfg0.win 2).blk t).view.emb y) = V m c main_v36 y
  refine congrArg _ (funext fun a => Fin.ext ?_)
  obtain ⟨-, -, -, -, e0, e1, -⟩ := idx_facts t
  match a with
  | ⟨0, _⟩ => show win0_2.index t (0 : Fin 2) * 1024 + 1 * (y 0).val = (y 0).val; omega
  | ⟨1, _⟩ => show win0_2.index t (1 : Fin 2) * 2048 + 1 * (y 1).val = (y 1).val; omega

theorem iblk3_eq (c : Dev nD) (t : Fin cfg0.N) : iblk m c 3 t = arrBa m c := by
  funext y
  show V m c main_v33 (((cfg0.win 3).blk t).view.emb y) = V m c main_v33 y
  refine congrArg _ (funext fun a => Fin.ext ?_)
  obtain ⟨-, -, -, -, -, -, e0, e1, -⟩ := idx_facts t
  match a with
  | ⟨0, _⟩ => show win0_3.index t (0 : Fin 2) * 1 + 1 * (y 0).val = (y 0).val; omega
  | ⟨1, _⟩ => show win0_3.index t (1 : Fin 2) * 1024 + 1 * (y 1).val = (y 1).val; omega

theorem iblk4_eq (c : Dev nD) (t : Fin cfg0.N) : iblk m c 4 t = arrWd m c := by
  funext y
  show V m c main_arg4 (((cfg0.win 4).blk t).view.emb y) = V m c main_arg4 y
  refine congrArg _ (funext fun a => Fin.ext ?_)
  obtain ⟨-, -, -, -, -, -, -, -, e0, e1, -⟩ := idx_facts t
  match a with
  | ⟨0, _⟩ => show win0_4.index t (0 : Fin 2) * 1 + 1 * (y 0).val = (y 0).val; omega
  | ⟨1, _⟩ => show win0_4.index t (1 : Fin 2) * 2048 + 1 * (y 1).val = (y 1).val; omega

theorem iblk5_eq (c : Dev nD) (t : Fin cfg0.N) : iblk m c 5 t = arrBd m c := by
  funext y
  show V m c main_v34 (((cfg0.win 5).blk t).view.emb y) = V m c main_v34 y
  refine congrArg _ (funext fun a => Fin.ext ?_)
  obtain ⟨-, -, -, -, -, -, -, -, -, -, e0, e1, -⟩ := idx_facts t
  match a with
  | ⟨0, _⟩ => show win0_5.index t (0 : Fin 2) * 1 + 1 * (y 0).val = (y 0).val; omega
  | ⟨1, _⟩ => show win0_5.index t (1 : Fin 2) * 1 + 1 * (y 1).val = (y 1).val; omega

theorem iblk6_eq (c : Dev nD) (t : Fin cfg0.N) : iblk m c 6 t = arrWi m c := by
  funext y
  show V m c main_v37 (((cfg0.win 6).blk t).view.emb y) = V m c main_v37 y
  refine congrArg _ (funext fun a => Fin.ext ?_)
  obtain ⟨-, -, -, -, -, -, -, -, -, -, -, -, e0, e1, -⟩ := idx_facts t
  match a with
  | ⟨0, _⟩ => show win0_6.index t (0 : Fin 2) * 2048 + 1 * (y 0).val = (y 0).val; omega
  | ⟨1, _⟩ => show win0_6.index t (1 : Fin 2) * 2048 + 1 * (y 1).val = (y 1).val; omega

theorem iblk7_eq (c : Dev nD) (t : Fin cfg0.N) : iblk m c 7 t = arrBi m c := by
  funext y
  show V m c main_v35 (((cfg0.win 7).blk t).view.emb y) = V m c main_v35 y
  refine congrArg _ (funext fun a => Fin.ext ?_)
  obtain ⟨-, -, -, -, -, -, -, -, -, -, -, -, -, -, e0, e1, -⟩ := idx_facts t
  match a with
  | ⟨0, _⟩ => show win0_7.index t (0 : Fin 2) * 1 + 1 * (y 0).val = (y 0).val; omega
  | ⟨1, _⟩ => show win0_7.index t (1 : Fin 2) * 2048 + 1 * (y 1).val = (y 1).val; omega

/-! ## The body's row formulas at a point are the whole-array formulas at the point's rows -/

theorem bAngle_at (c : Dev nD) (t : Fin cfg0.N) (r : Fin 128) (q : Fin 1024) :
    bAngle (iblk m c 0 t) (iblk m c 2 t) (iblk m c 3 t) r q
      = pAngle (arrX m c) (arrWa m c) (arrBa m c) (rowOf t r) q := by
  unfold bAngle pAngle
  simp only [iblk0_apply, iblk2_eq, iblk3_eq]

theorem bGate_at (c : Dev nD) (t : Fin cfg0.N) (r : Fin 128) :
    bGate (iblk m c 0 t) (iblk m c 4 t) (iblk m c 5 t) r
      = pGate (arrX m c) (arrWd m c) (arrBd m c) (rowOf t r) := by
  unfold bGate pGate
  simp only [iblk0_apply, iblk4_eq, iblk5_eq]

theorem bInject_at (c : Dev nD) (t : Fin cfg0.N) (r : Fin 128) (j : Fin 2048) :
    bInject (iblk m c 0 t) (iblk m c 6 t) (iblk m c 7 t) r j
      = pInject (arrX m c) (arrWi m c) (arrBi m c) (rowOf t r) j := by
  unfold bInject pInject
  simp only [iblk0_apply, iblk6_eq, iblk7_eq]

/-- WHAT POINT `t` WRITES BACK is block `t` of the permuted result. -/
theorem flushed8_eq (c : Dev nD) (t : Fin cfg0.N) :
    (dats m 0 c).flushed 8 t = ((cfg0.win 8).blk t).view.read (Elt Ideal) (permResult m c) := by
  show (cfg0.win 8).cut (grid0.coords t) ((dats m 0 c).after 8 t) = _
  rw [after0_8]
  funext j
  obtain ⟨r, jj, rfl⟩ : ∃ (r : Fin 128) (jj : Fin 2048), j = ix2 r jj := ⟨j 0, j 1, eq_ix2 j⟩
  have hemb : ((cfg0.win 8).blk t).view.emb (ix2 r jj) = ix2 (rowOf t r) jj := by
    funext a; apply Fin.ext
    obtain ⟨-, -, -, -, -, -, -, -, -, -, -, -, -, -, -, -, e0, e1⟩ := idx_facts t
    match a with
    | ⟨0, _⟩ => show win0_8.index t (0 : Fin 2) * 128 + 1 * r.val = t.val * 128 + r.val; omega
    | ⟨1, _⟩ => show win0_8.index t (1 : Fin 2) * 2048 + 1 * jj.val = jj.val; omega
  show out0_8 (iblk m c 0 t) (iblk m c 1 t) (iblk m c 2 t) (iblk m c 3 t) (iblk m c 4 t) (iblk m c 5 t) (iblk m c 6 t)
      (iblk m c 7 t) (ix2 r jj) = permResult m c (((cfg0.win 8).blk t).view.emb (ix2 r jj))
  rw [hemb]
  show _ = pOut (arrX m c) (arrH m c) (arrWa m c) (arrBa m c) (arrWd m c) (arrBd m c) (arrWi m c) (arrBi m c) (ix2 (rowOf t r) jj)
  unfold pOut
  by_cases h : jj.val < 1024
  · rw [dif_pos (show ((ix2 (rowOf t r) jj) 1).val < 1024 from h)]
    exact (out0_8_left (iblk m c 0 t) (iblk m c 1 t) (iblk m c 2 t) (iblk m c 3 t) (iblk m c 4 t) (iblk m c 5 t)
      (iblk m c 6 t) (iblk m c 7 t) r ⟨jj.val, h⟩).trans (by
        unfold bLeft pLeft
        rw [bAngle_at, bGate_at, bInject_at, iblk1_apply, iblk1_apply])
  · rw [dif_neg (show ¬ ((ix2 (rowOf t r) jj) 1).val < 1024 from h)]
    have hj : jj = (⟨(⟨jj.val - 1024, by have := jj.isLt; omega⟩ : Fin 1024).val + 1024, by have := jj.isLt; omega⟩ : Fin 2048) :=
      Fin.ext (by show jj.val = jj.val - 1024 + 1024; omega)
    conv_lhs => rw [hj]
    exact (out0_8_right (iblk m c 0 t) (iblk m c 1 t) (iblk m c 2 t) (iblk m c 3 t) (iblk m c 4 t) (iblk m c 5 t)
      (iblk m c 6 t) (iblk m c 7 t) r ⟨jj.val - 1024, by have := jj.isLt; omega⟩).trans (by
        unfold bRight pRight
        rw [bAngle_at, bGate_at, bInject_at, iblk1_apply, iblk1_apply])

/-- An index of the array is in point `t`'s block iff each coordinate is in the block's range on its axis. -/
theorem mem_blk8 (t : Fin cfg0.N) (i : S16384x2048.Idx) :
    i ∈ ((cfg0.win 8).blk t).view.set ↔ ∀ a : Fin 2, win0_8.index t a * S128x2048.size a ≤ (i a).val ∧ (i a).val < win0_8.index t a * S128x2048.size a + S128x2048.size a := by
  show i ∈ ((View.whole main_v38).slice (win0_8.rect t)).set ↔ _
  rw [View.set_slice_whole, Rect.mem_set_unit]
  exact Iff.rfl

/-- Every row lies in the row block of the point `row / 128`. -/
theorem cover8 (i : S16384x2048.Idx) : ∃ t : Fin cfg0.N, (cfg0.win 8).flush t = true ∧ i ∈ ((cfg0.win 8).blk t).view.set := by
  have hi0 : (i 0).val < 16384 := idx2_lt0 i
  have hi1 : (i 1).val < 2048 := idx2_lt1 i
  have hN : cfg0.N = 128 := N_0
  let t : Fin cfg0.N := ⟨(i 0).val / 128, by omega⟩
  obtain ⟨-, -, -, -, -, -, -, -, -, -, -, -, -, -, -, -, e0, e1⟩ := idx_facts t
  have et : t.val = (i 0).val / 128 := rfl
  refine ⟨t, flush0_8 t, ?_⟩
  rw [mem_blk8]
  intro a
  match a with
  | ⟨0, _⟩ => show win0_8.index t (0 : Fin 2) * 128 ≤ (i 0).val ∧ (i 0).val < win0_8.index t (0 : Fin 2) * 128 + 128; omega
  | ⟨1, _⟩ => show win0_8.index t (1 : Fin 2) * 2048 ≤ (i 1).val ∧ (i 1).val < win0_8.index t (1 : Fin 2) * 2048 + 2048; omega

/-- THE RESULT ARRAY after the run: the permuted result, everywhere. -/
theorem final8 (c : Dev nD) : (dats m 0 c).arrAt 8 cfg0.N = permResult m c :=
  (dats m 0 c).arrAt_eq_of_cover 8 (permResult m c) (fun t _ => flushed8_eq m c t) cover8

end frame
end Cert.Givens.Kernel
end
-- ==== Proof.Spec.lean ====
/-
  The value both programs compute, index by index, on the extended reals.

  One step of a state-space layer whose state is rotated pairwise (Givens rotations). For batch row `b`,
  pair `p` (columns `2p` and `2p+1` of the state) and output column `v`:

    angle b p  = (∑ k, x[b,k] · Wa[p,k]) + ba[p]
    gate  b    = logistic ((∑ k, x[b,k] · Wd[0,k]) + bd[0])          (logistic z = 1 / (1 + e^(−z)))
    inject b v = (∑ k, x[b,k] · Wi[v,k]) + bi[v]
    rot b (2p)   = cos(angle b p) · h[b,2p] − sin(angle b p) · h[b,2p+1]
    rot b (2p+1) = sin(angle b p) · h[b,2p] + cos(angle b p) · h[b,2p+1]
    out[b,v]   = gate b · rot b v + inject b v

  One program works on the columns in their natural (interleaved) order; the other permutes the columns to
  "evens, then odds", works on two contiguous halves and permutes back. `evensOdds` is that permutation.
-/
import Idealize.ShloMosaic.PureOps.Ideal
import Idealize.ShloMosaic.Lib.ValueIdx

noncomputable section

open scoped BigOperators

namespace Cert.Givens

open Idealize.ShloMosaic Idealize.ShloMosaic.ValueIdx

/-- The arrays' shapes, as literals (each program names the same literals in its own namespace). -/
abbrev SX : Shape := ⟨2, ![16384, 2048]⟩
abbrev SWa : Shape := ⟨2, ![1024, 2048]⟩
abbrev Sba : Shape := ⟨1, ![1024]⟩
abbrev SWd : Shape := ⟨2, ![1, 2048]⟩
abbrev Sbd : Shape := ⟨1, ![1]⟩
abbrev SWi : Shape := ⟨2, ![2048, 2048]⟩
abbrev Sbi : Shape := ⟨1, ![2048]⟩

/-! ## The column permutation "evens, then odds" -/

/-- Position `j` of the permuted order holds column `2j` (first half) or `2(j − 1024) + 1` (second half). -/
def eoFwd (j : Fin 2048) : Fin 2048 :=
  if h : j.val < 1024 then ⟨2 * j.val, by omega⟩ else ⟨2 * (j.val - 1024) + 1, by omega⟩

/-- Column `v` sits at position `v / 2` if it is even and `1024 + v / 2` if it is odd. -/
def eoInv (v : Fin 2048) : Fin 2048 :=
  if h : v.val % 2 = 0 then ⟨v.val / 2, by omega⟩ else ⟨1024 + v.val / 2, by omega⟩

theorem eoInv_eoFwd (j : Fin 2048) : eoInv (eoFwd j) = j := by
  unfold eoInv eoFwd
  by_cases h : j.val < 1024
  · rw [dif_pos h]
    have : (2 * j.val) % 2 = 0 := by omega
    rw [dif_pos this]
    exact Fin.ext (by show 2 * j.val / 2 = j.val; omega)
  · rw [dif_neg h]
    have : ¬ (2 * (j.val - 1024) + 1) % 2 = 0 := by omega
    rw [dif_neg this]
    exact Fin.ext (by show 1024 + (2 * (j.val - 1024) + 1) / 2 = j.val; omega)

theorem eoFwd_eoInv (v : Fin 2048) : eoFwd (eoInv v) = v := by
  unfold eoInv eoFwd
  by_cases h : v.val % 2 = 0
  · rw [dif_pos h]
    have : v.val / 2 < 1024 := by omega
    rw [dif_pos this]
    exact Fin.ext (by show 2 * (v.val / 2) = v.val; omega)
  · rw [dif_neg h]
    have : ¬ (1024 + v.val / 2 < 1024) := by omega
    rw [dif_neg this]
    exact Fin.ext (by show 2 * (1024 + v.val / 2 - 1024) + 1 = v.val; omega)

/-- "Evens, then odds" as a permutation of the 2048 columns: position ↦ column. -/
def evensOdds : Equiv.Perm (Fin 2048) where
  toFun := eoFwd
  invFun := eoInv
  left_inv := eoInv_eoFwd
  right_inv := eoFwd_eoInv

@[simp] theorem evensOdds_apply (j : Fin 2048) : evensOdds j = eoFwd j := rfl
@[simp] theorem evensOdds_symm_apply (v : Fin 2048) : evensOdds.symm v = eoInv v := rfl

/-! ## The layer, index by index -/

section
variable (x h : FVec Ideal SX .f32) (Wa : FVec Ideal SWa .f32) (ba : FVec Ideal Sba .f32)
  (Wd : FVec Ideal SWd .f32) (bd : FVec Ideal Sbd .f32) (Wi : FVec Ideal SWi .f32) (bi : FVec Ideal Sbi .f32)

/-- The rotation angle of pair `p` in batch row `b`. -/
def angle (b : Fin 16384) (p : Fin 1024) : EReal :=
  (∑ k : Fin 2048, x (ix2 b k) * Wa (ix2 p k)) + ba (ix1 p)

/-- The decay gate of batch row `b`. -/
def gate (b : Fin 16384) : EReal :=
  Ideal.logistic ((∑ k : Fin 2048, x (ix2 b k) * Wd (ix2 (0 : Fin 1) k)) + bd (ix1 (0 : Fin 1)))

/-- The injected input at column `v`. -/
def inject (b : Fin 16384) (v : Fin 2048) : EReal :=
  (∑ k : Fin 2048, x (ix2 b k) * Wi (ix2 v k)) + bi (ix1 v)

/-- The first component of pair `p` after the rotation. -/
def rotA (b : Fin 16384) (p : Fin 1024) : EReal :=
  Ideal.cos (angle x Wa ba b p) * h (ix2 b (⟨2 * p.val, by omega⟩ : Fin 2048))
    - Ideal.sin (angle x Wa ba b p) * h (ix2 b (⟨2 * p.val + 1, by omega⟩ : Fin 2048))

/-- The second component of pair `p` after the rotation. -/
def rotB (b : Fin 16384) (p : Fin 1024) : EReal :=
  Ideal.sin (angle x Wa ba b p) * h (ix2 b (⟨2 * p.val, by omega⟩ : Fin 2048))
    + Ideal.cos (angle x Wa ba b p) * h (ix2 b (⟨2 * p.val + 1, by omega⟩ : Fin 2048))

/-- The rotated state at column `v`: component `v mod 2` of pair `v / 2`. -/
def rot (b : Fin 16384) (v : Fin 2048) : EReal :=
  if v.val % 2 = 0 then rotA x h Wa ba b ⟨v.val / 2, by omega⟩ else rotB x h Wa ba b ⟨v.val / 2, by omega⟩

/-- The layer's output. -/
def out : FVec Ideal SX .f32 := fun i =>
  gate x Wd bd (i 0) * rot x h Wa ba (i 0) (i 1) + inject x Wi bi (i 0) (i 1)

theorem out_apply (b : Fin 16384) (v : Fin 2048) :
    out x h Wa ba Wd bd Wi bi (ix2 b v) = gate x Wd bd b * rot x h Wa ba b v + inject x Wi bi b v := rfl

end

end Cert.Givens

end
-- ==== Proof.LibArgsortPerm.lean ====
/-
  A general fact about an argsort: a stable two-operand sort by signed less-than on the keys, carrying
  the positions. If the key table lists a permutation π of 0..n-1 (keys[j] = π j) and the carried table is
  the identity (pos[j] = j), then the carried table after the sort is the inverse permutation: entry j
  reads π⁻¹ j.

  The reasoning. On a rank-1 shape the sort reads both tables through one self-map of the positions, the
  stable sorting permutation of the relation "position k's pair sorts before position k''s". The keys are
  natural numbers below n ≤ 2^31, so as 32-bit words they are non-negative and signed less-than on them is
  less-than on the naturals: that relation is "π k < π k'". It is a strict total order on the positions, and
  the stable sort under the order "σ⁻¹ k < σ⁻¹ k'" lists the positions in σ's order; with σ = π⁻¹ the sorted
  position j comes from source position π⁻¹ j, where the carried identity table holds π⁻¹ j.
-/
import Idealize.ShloMosaic.PureOps
import Idealize.ShloMosaic.Lib.SortFacts

open Idealize.ShloMosaic

namespace Cert.Lib.ArgsortPerm

/-- A natural number below 2^31, as a 32-bit word, is non-negative: its signed value is itself. -/
theorem toInt_ofNat_of_lt {a : Nat} (ha : a < 2 ^ 31) : (BitVec.ofNat 32 a).toInt = (a : Int) := by
  rw [BitVec.toInt_eq_toNat_cond]
  simp only [BitVec.toNat_ofNat]
  have h : a % 2 ^ 32 = a := Nat.mod_eq_of_lt (by omega)
  rw [h]
  split <;> omega

/-- Signed less-than on two words that hold naturals below 2^31 is less-than on the naturals. -/
theorem cmpi_slt_ofNat {a b : Nat} (ha : a < 2 ^ 31) (hb : b < 2 ^ 31) :
    (IntOp.cmpi .slt (BitVec.ofNat 32 a) (BitVec.ofNat 32 b) == 1#1) = decide (a < b) := by
  simp only [IntOp.cmpi, BitVec.slt, toInt_ofNat_of_lt ha, toInt_ofNat_of_lt hb, Int.ofNat_lt]
  by_cases h : a < b <;> simp [h]

/-- On a rank-1 shape the second table of a two-operand sort along axis 0 is read through ONE self-map of
    the positions: the stable sorting permutation of the comparator on the pairs of the two tables' words. -/
theorem sort2_rank1_snd {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- The stable sort under "π k < π k'" takes sorted position k from source position π⁻¹ k. -/
theorem sortedFrom_perm_lt {n : Nat} (π : Equiv.Perm (Fin n)) (k : Fin n) :
    sortedFrom (fun k k' => decide (π k < π k')) k = π.symm k := by
  have h : sortPositions n (fun k k' => decide (π k < π k')) = List.ofFn π.symm := sortPositions_of_perm π.symm
  unfold sortedFrom
  rw [List.get_of_eq h]
  simp

/-- An argsort of a table that lists a permutation of 0..n-1 is the inverse permutation: if keys[j] = π j and
    pos[j] = j, the positions carried through the stable sort by signed '<' on the keys read π⁻¹. -/
theorem argsort_of_perm {n : Nat} (hn : n ≤ 2 ^ 31) (π : Equiv.Perm (Fin n))
    (cmp : BitVec 32 × BitVec 32 → BitVec 32 × BitVec 32 → BitVec 1)
    (hcmp : ∀ l r, cmp l r = IntOp.cmpi .slt l.1 r.1)
    (keys pos : IVec ⟨1, ![n]⟩ 32)
    (hkeys : ∀ j, keys j = BitVec.ofNat 32 (π (j 0)).val)
    (hpos : ∀ j, pos j = BitVec.ofNat 32 (j 0).val)
    (j : (⟨1, ![n]⟩ : Shape).Idx) :
    (Host.sort2 ⟨1, ![n]⟩ 0 cmp keys pos).2 j = BitVec.ofNat 32 (π.symm (j 0)).val := by
  -- the sort's "before" relation on the positions is "π k < π k'"
  have hbefore : (fun k k' : Fin n => cmp (keys (Shape.Idx.ofFin k), pos (Shape.Idx.ofFin k))
      (keys (Shape.Idx.ofFin k'), pos (Shape.Idx.ofFin k')) == 1#1) = fun k k' => decide (π k < π k') := by
    funext k k'
    rw [hcmp, hkeys, hkeys]
    simp only [Shape.Idx.ofFin_zero]
    rw [cmpi_slt_ofNat (lt_of_lt_of_le (π k).isLt hn) (lt_of_lt_of_le (π k').isLt hn)]
    simp only [Fin.lt_def]
  rw [sort2_rank1_snd, hbefore, hpos, Shape.Idx.ofFin_zero]
  exact congrArg (fun k : Fin n => BitVec.ofNat 32 k.val) (sortedFrom_perm_lt π (j 0))

end Cert.Lib.ArgsortPerm
-- ==== Proof.LibGatherAxis.lean ====
/-
  `stablehlo.gather` READ AT AN INDEX, for the three shapes that indexing ONE axis of an array by an integer vector
  lowers to when the vector is given as a column of start indices `[K, 1]` (the index vector's axis is axis 1 and has
  extent 1, so every start index is one scalar):

  * `x[:, idx]` of a matrix: the start index names the COLUMN, the row is the result's offset coordinate;
  * `x[idx, :]` of a matrix: the start index names the ROW, the column is the result's offset coordinate;
  * `x[idx]` of a vector: the start index names the one coordinate.

  In each case the gather's operand index is, axis by axis, (clamped start) + (batching coordinate) + (offset
  coordinate). There are no batching axes, so the middle term is 0 everywhere. On the indexed axis the slice has
  size 1 and the axis is collapsed: the offset coordinate is 0 and the start is the start index read as a signed integer
  and clamped into `[0, extent − 1]`. On the other axis (when there is one) the slice is the whole axis and the start
  index map does not name it, so the start is 0 and the offset coordinate is the result's coordinate on its one offset
  axis. The start index for result element number `k` along the batch axis is read at `[k, 0]`: the batch coordinate on
  the start indices' axis 0, and component 0 on the index vector's axis.
-/
import Idealize.ShloMosaic.PureOps
import Idealize.ShloMosaic.Lib.ValueIdx

namespace Cert.Lib.GatherAxis

open Idealize.ShloMosaic Idealize.ShloMosaic.ValueIdx

/-- x[:, idx]: operand [R, C], start indices [K, 1], result [R, K]; offset_dims [0], collapsed_slice_dims [1], start_index_map [1], index_vector_dim 1, slice_sizes [R, 1]. Element (r, k) is the operand at row r and at the column idx[k, 0] read signed and clamped into [0, C − 1]. -/
theorem gather_cols_apply {α : Type} {R C K w : Nat} (hC : 0 < C)
    (d : GatherDims ⟨2, ![R, C]⟩ ⟨2, ![K, 1]⟩ ⟨2, ![R, K]⟩)
    (ho : d.offsetDims = [0]) (hc : d.collapsedSliceDims = [1]) (hob : d.operandBatchingDims = [])
    (hsb : d.startIndicesBatchingDims = []) (hm : d.startIndexMap = [1]) (hv : d.indexVectorDim = 1)
    (hs : d.sliceSizes = ![R, 1])
    (x : (⟨2, ![R, C]⟩ : Shape).Idx → α) (idx : IVec ⟨2, ![K, 1]⟩ w) (r : Fin R) (k : Fin K) :
    Host.gather d x idx (ix2 r k) = x (ix2 r ⟨min (idx (ix2 k (0 : Fin 1))).toInt.toNat (C - 1), by omega⟩) := by
  obtain ⟨od, cd, ob, sb, sm, iv, ss, wf⟩ := d
  dsimp only at ho hc hob hsb hm hv hs
  subst ho hc hob hsb hm hv hs
  unfold Host.gather
  congr 1
  funext a
  refine Fin.ext ?_
  match a with
  | ⟨0, _⟩ =>
    -- the row axis: not named by the start index map (start 0), kept, and read by the result's offset axis 0
    show GatherDims.start _ (ix2 r k) idx 0 + GatherDims.batchCoord _ (ix2 r k) 0 + GatherDims.offCoord _ (ix2 r k) 0 = r.val
    rw [GatherDims.batchCoord_eq_zero _ _ _ List.not_mem_nil]
    unfold GatherDims.start GatherDims.offCoord
    rw [dif_neg (show (0 : Fin 2) ∉ [1] by decide),
      dif_pos ((GatherDims.mem_sKept _ _).mpr ⟨show (0 : Fin 2) ∉ [1] by decide, List.not_mem_nil⟩)]
    simp only [Nat.add_zero, Nat.zero_add]
    rfl
  | ⟨1, _⟩ =>
    -- the column axis: collapsed (offset coordinate 0), its start the clamped start index
    show GatherDims.start _ (ix2 r k) idx 1 + GatherDims.batchCoord _ (ix2 r k) 1 + GatherDims.offCoord _ (ix2 r k) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    -- the start index is read at [k, 0]
    have hsi : GatherDims.siIdx (⟨[0], [1], [], [], [1], 1, ![R, 1], wf⟩ : GatherDims ⟨2, ![R, C]⟩ ⟨2, ![K, 1]⟩ ⟨2, ![R, K]⟩) (ix2 r k)
        ⟨List.idxOf (1 : Fin 2) [1], List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl

/-- x[idx, :]: operand [R, C], start indices [K, 1], result [K, C]; offset_dims [1], collapsed_slice_dims [0], start_index_map [0], index_vector_dim 1, slice_sizes [1, C]. Element (k, c) is the operand at the row idx[k, 0] (signed, clamped into [0, R − 1]) and column c. -/
theorem gather_rows_apply {α : Type} {R C K w : Nat} (hR : 0 < R)
    (d : GatherDims ⟨2, ![R, C]⟩ ⟨2, ![K, 1]⟩ ⟨2, ![K, C]⟩)
    (ho : d.offsetDims = [1]) (hc : d.collapsedSliceDims = [0]) (hob : d.operandBatchingDims = [])
    (hsb : d.startIndicesBatchingDims = []) (hm : d.startIndexMap = [0]) (hv : d.indexVectorDim = 1)
    (hs : d.sliceSizes = ![1, C])
    (x : (⟨2, ![R, C]⟩ : Shape).Idx → α) (idx : IVec ⟨2, ![K, 1]⟩ w) (k : Fin K) (c : Fin C) :
    Host.gather d x idx (ix2 k c) = x (ix2 ⟨min (idx (ix2 k (0 : Fin 1))).toInt.toNat (R - 1), by omega⟩ c) := by
  obtain ⟨od, cd, ob, sb, sm, iv, ss, wf⟩ := d
  dsimp only at ho hc hob hsb hm hv hs
  subst ho hc hob hsb hm hv hs
  unfold Host.gather
  congr 1
  funext a
  refine Fin.ext ?_
  match a with
  | ⟨0, _⟩ =>
    -- the row axis: collapsed (offset coordinate 0), its start the clamped start index
    show GatherDims.start _ (ix2 k c) idx 0 + GatherDims.batchCoord _ (ix2 k c) 0 + GatherDims.offCoord _ (ix2 k c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    -- the start index is read at [k, 0]
    have hsi : GatherDims.siIdx (⟨[1], [0], [], [], [0], 1, ![1, C], wf⟩ : GatherDims ⟨2, ![R, C]⟩ ⟨2, ![K, 1]⟩ ⟨2, ![K, C]⟩) (ix2 k c)
        ⟨List.idxOf (0 : Fin 2) [0], List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    -- the column axis: not named by the start index map (start 0), kept, and read by the result's offset axis 1
    show GatherDims.start _ (ix2 k c) idx 1 + GatherDims.batchCoord _ (ix2 k c) 1 + GatherDims.offCoord _ (ix2 k c) 1 = c.val
    rw [GatherDims.batchCoord_eq_zero _ _ _ List.not_mem_nil]
    unfold GatherDims.start GatherDims.offCoord
    rw [dif_neg (show (1 : Fin 2) ∉ [0] by decide),
      dif_pos ((GatherDims.mem_sKept _ _).mpr ⟨show (1 : Fin 2) ∉ [0] by decide, List.not_mem_nil⟩)]
    simp only [Nat.add_zero, Nat.zero_add]
    rfl

/-- x[idx]: operand [N], start indices [K, 1], result [K]; offset_dims [], collapsed_slice_dims [0], start_index_map [0], index_vector_dim 1, slice_sizes [1]. Element k is the operand at idx[k, 0], signed and clamped into [0, N − 1]. -/
theorem gather_vec_apply {α : Type} {N K w : Nat} (hN : 0 < N)
    (d : GatherDims ⟨1, ![N]⟩ ⟨2, ![K, 1]⟩ ⟨1, ![K]⟩)
    (ho : d.offsetDims = []) (hc : d.collapsedSliceDims = [0]) (hob : d.operandBatchingDims = [])
    (hsb : d.startIndicesBatchingDims = []) (hm : d.startIndexMap = [0]) (hv : d.indexVectorDim = 1)
    (hs : d.sliceSizes = ![1])
    (x : (⟨1, ![N]⟩ : Shape).Idx → α) (idx : IVec ⟨2, ![K, 1]⟩ w) (k : Fin K) :
    Host.gather d x idx (ix1 k) = x (ix1 ⟨min (idx (ix2 k (0 : Fin 1))).toInt.toNat (N - 1), by omega⟩) := by
  obtain ⟨od, cd, ob, sb, sm, iv, ss, wf⟩ := d
  dsimp only at ho hc hob hsb hm hv hs
  subst ho hc hob hsb hm hv hs
  unfold Host.gather
  congr 1
  funext a
  obtain rfl : a = 0 := Subsingleton.elim _ _
  refine Fin.ext ?_
  -- the one axis: collapsed (offset coordinate 0), its start the clamped start index
  show GatherDims.start _ (ix1 k) idx 0 + GatherDims.batchCoord _ (ix1 k) 0 + GatherDims.offCoord _ (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  -- the start index is read at [k, 0]
  have hsi : GatherDims.siIdx (⟨[], [0], [], [], [0], 1, ![1], wf⟩ : GatherDims ⟨1, ![N]⟩ ⟨2, ![K, 1]⟩ ⟨1, ![K]⟩) (ix1 k)
      ⟨List.idxOf (0 : Fin 1) [0], List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  rfl

end Cert.Lib.GatherAxis
-- ==== Proof.KPrefix.lean ====
/-
  The host operations before the pallas_call, read.

  They build the table "evens, then odds" as 32-bit words (two affine images of an iota, joined), take its
  argsort, and use the table three times as gather indices — after numpy's wrap of negative indices, which never
  applies here — to permute the state's columns, the injection weights' rows and the injection bias. The other
  operands of the call are arguments reshaped or narrowed, which is the identity on the extended reals.
  The argsort of a table that lists a permutation is the inverse permutation.
-/
import proofs.«425456_j53661321396647_3_alg».proof.Proof.Gen.KernelIdeal.Frame
import proofs.«425456_j53661321396647_3_alg».proof.Proof.KArrays
import proofs.«425456_j53661321396647_3_alg».proof.Proof.Spec
import proofs.«425456_j53661321396647_3_alg».proof.Proof.LibArgsortPerm
import proofs.«425456_j53661321396647_3_alg».proof.Proof.LibGatherAxis
import Idealize.ShloMosaic.Lib.StableHlo.Run
import Idealize.ShloMosaic.Lib.Pipeline.Value
import Idealize.ShloMosaic.Lib.ValueIdx
import Idealize.ShloMosaic.Lib.ValueLayout

noncomputable section

namespace Cert.Givens.Kernel

open Idealize.ShloMosaic Idealize.ShloMosaic.TcCoe Idealize.ShloMosaic.ValueIdx Idealize.ShloMosaic.StableHlo Idealize.SL.Sem
open Cert.KernelIdeal Cert.KernelIdeal.Gen Cert.Givens Cert.Lib.ArgsortPerm Cert.Lib.GatherAxis

/-! ## The table of words -/

/-- `[0, 2, …, 2046, 1, 3, …, 2047]` as 32-bit words: `0 + 2·i` for the first 1024 positions, `1 + 2·i` for the rest. -/
def permWords : IVec S2048 32 :=
  concatenate S2048 0
    [⟨S1024, addi (broadcastInDim S1024 ![] bcast_S_S1024 (constantI S_ 32 0#32))
        (muli (broadcastInDim S1024 ![] bcast_S_S1024 (constantI S_ 32 2#32)) (iotaInDim S1024 32 0))⟩,
      ⟨S1024, addi (broadcastInDim S1024 ![] bcast_S_S1024 (constantI S_ 32 1#32))
        (muli (broadcastInDim S1024 ![] bcast_S_S1024 (constantI S_ 32 2#32)) (iotaInDim S1024 32 0))⟩]
    concatenates_S1024_S1024_S2048_d0

/-- Position `j` of the table holds the column "evens, then odds" puts there. -/
theorem permWords_apply (j : Fin 2048) : permWords (ix1 j) = BitVec.ofNat 32 (evensOdds j).val := by
  unfold permWords
  rw [evensOdds_apply]
  unfold eoFwd
  by_cases h : j.val < 1024
  · rw [dif_pos h]
    refine (concatenate_pair_apply_left (s₁ := S1024) (s₂ := S1024) _ _ _ _ (ix1 j) rfl (ix1 (⟨j.val, h⟩ : Fin 1024))
      (fun a => by match a with | ⟨0, _⟩ => rfl)).trans ?_
    show IntOp.addi (0#32) (IntOp.muli (2#32) (BitVec.ofNat 32 j.val)) = BitVec.ofNat 32 (2 * j.val)
    unfold IntOp.addi IntOp.muli
    bv_omega
  · rw [dif_neg h]
    have hj := j.isLt
    refine (concatenate_pair_apply_right (s₁ := S1024) (s₂ := S1024) _ _ _ _ (ix1 j) rfl rfl
      (ix1 (⟨j.val - 1024, by omega⟩ : Fin 1024)) (fun a ha => by match a with | ⟨0, _⟩ => exact absurd rfl ha)
      (by show j.val - 1024 + 1024 = j.val; omega)).trans ?_
    show IntOp.addi (1#32) (IntOp.muli (2#32) (BitVec.ofNat 32 (j.val - 1024))) = BitVec.ofNat 32 (2 * (j.val - 1024) + 1)
    unfold IntOp.addi IntOp.muli
    bv_omega

/-! ## From a table to a column of start indices -/

/-- numpy's wrap of a negative index (`i < 0 ? i + 2048 : i`), then the table as a `[2048, 1]` column. -/
def startCol (w : IVec S2048 32) : IVec S2048x1 32 :=
  broadcastInDim S2048x1 ![0] bcast_S2048_S2048x1_0
    (select (cmpi .slt w (broadcastInDim S2048 ![] bcast_S_S2048 (constantI S_ 32 0#32)))
      (addi w (broadcastInDim S2048 ![] bcast_S_S2048 (constantI S_ 32 2048#32))) w)

/-- A word that holds a natural below 2048 is not negative: the wrap leaves it. -/
theorem startCol_apply (w : IVec S2048 32) (k : Fin 2048) (n : Nat) (hn : n < 2048) (hw : w (ix1 k) = BitVec.ofNat 32 n) :
    startCol w (ix2 k (0 : Fin 1)) = BitVec.ofNat 32 n := by
  unfold startCol
  rw [broadcastInDim_apply _ bcast_S2048_S2048x1_0 _ (ix2 k (0 : Fin 1)) (ix1 k) (fun a => by
    match a with
    | ⟨0, _⟩ => show k.val = if (2048 : Nat) = 1 then 0 else k.val; rw [if_neg (by decide)])]
  show Scalar.select (IntOp.cmpi .slt (w (ix1 k)) (0#32)) (IntOp.addi (w (ix1 k)) (2048#32)) (w (ix1 k)) = _
  rw [hw]
  have h := cmpi_slt_ofNat (a := n) (b := 0) (by omega) (by omega)
  have hne : ¬ IntOp.cmpi .slt (BitVec.ofNat 32 n) (0#32) = 1#1 := by
    intro e
    have : (IntOp.cmpi .slt (BitVec.ofNat 32 n) (BitVec.ofNat 32 0) == 1#1) = true := by
      rw [beq_iff_eq]; exact e
    rw [h] at this
    simp at this
  exact if_neg hne

/-- Such a word, read as a signed integer and clamped into `[0, 2047]`, is the natural it holds. -/
theorem clamp_word (n : Nat) (hn : n < 2048) : min (BitVec.ofNat 32 n).toInt.toNat (2048 - 1) = n := by
  rw [toInt_ofNat_of_lt (by omega)]
  simp only [Int.toNat_natCast]
  omega

theorem startCol_permWords_clamped (j : Fin 2048) :
    min (startCol permWords (ix2 j (0 : Fin 1))).toInt.toNat (2048 - 1) = (evensOdds j).val := by
  rw [startCol_apply permWords j _ (evensOdds j).isLt (permWords_apply j), clamp_word _ (evensOdds j).isLt]

/-! ## The call's operands, read -/

section
variable (m : (ℓ : Loc nD τ sig) → Buf (Elt Ideal) ℓ)

/-- The arguments, by their literal types. -/
abbrev argX (c : Dev nD) : FVec Ideal S16384x2048 .f32 := m ((c : Thread nD τ).loc main_arg0)
abbrev argH (c : Dev nD) : FVec Ideal S16384x2048 .f32 := m ((c : Thread nD τ).loc main_arg1)
abbrev argWa (c : Dev nD) : FVec Ideal S1024x2048 .f32 := m ((c : Thread nD τ).loc main_arg2)
abbrev argBa (c : Dev nD) : FVec Ideal S1024 .f32 := m ((c : Thread nD τ).loc main_arg3)
abbrev argWd (c : Dev nD) : FVec Ideal S1x2048 .f32 := m ((c : Thread nD τ).loc main_arg4)
abbrev argBd (c : Dev nD) : FVec Ideal S1 .f32 := m ((c : Thread nD τ).loc main_arg5)
abbrev argWi (c : Dev nD) : FVec Ideal S2048x2048 .f32 := m ((c : Thread nD τ).loc main_arg6)
abbrev argBi (c : Dev nD) : FVec Ideal S2048 .f32 := m ((c : Thread nD τ).loc main_arg7)

/-- Reads one buffer off the fold of the host operations before the call. -/
macro "read_prefix" : tactic =>
  `(tactic| (dsimp only [V, V0]
             simp only [hostOps0, hostOps0_1, hostOps0_2, List.flatten_cons, List.flatten_nil, List.append_nil,
               List.cons_append, List.nil_append]
             (after_results_simp <;> rfl)))

set_option maxHeartbeats 4000000 in
theorem arrH_eq (c : Dev nD) : arrH m c
    = Host.gather gather_S16384x2048_S2048x1_S16384x2048_0_1_n_n_1_1_163841 (argH m c) (startCol permWords) := by
  show V m c main_v18 = _
  read_prefix

set_option maxHeartbeats 4000000 in
theorem arrWi_eq (c : Dev nD) : arrWi m c
    = truncf .bf16 (Host.gather gather_S2048x2048_S2048x1_S2048x2048_1_0_n_n_0_1_12048 (argWi m c) (startCol permWords))
        bitsLt_bf16_f32 := by
  show V m c main_v37 = _
  read_prefix

set_option maxHeartbeats 4000000 in
theorem arrBi_eq (c : Dev nD) : arrBi m c
    = shapeCast S1x2048 (Host.gather gather_S2048_S2048x1_S2048_n_0_n_n_0_1_1 (argBi m c) (startCol permWords))
        shapeCasts_S2048_S1x2048 := by
  show V m c main_v35 = _
  read_prefix

set_option maxHeartbeats 4000000 in
theorem arrWa_eq (c : Dev nD) : arrWa m c = truncf .bf16 (argWa m c) bitsLt_bf16_f32 := by
  show V m c main_v36 = _
  read_prefix

set_option maxHeartbeats 4000000 in
theorem arrBa_eq (c : Dev nD) : arrBa m c = shapeCast S1x1024 (argBa m c) shapeCasts_S1024_S1x1024 := by
  show V m c main_v33 = _
  read_prefix

set_option maxHeartbeats 4000000 in
theorem arrBd_eq (c : Dev nD) : arrBd m c = shapeCast S1x1 (argBd m c) shapeCasts_S1_S1x1 := by
  show V m c main_v34 = _
  read_prefix

set_option maxHeartbeats 4000000 in
/-- The argsort's result buffer. -/
theorem invWords_eq (c : Dev nD) : (V m c main_v11 : IVec S2048 32)
    = (Host.sort2 S2048 0 comparator_i32_i32_d0 permWords (iotaInDim S2048 32 0)).2 := by
  read_prefix

theorem arrX_eq (c : Dev nD) : arrX m c = argX m c := V_main_arg0 m c
theorem arrWd_eq (c : Dev nD) : arrWd m c = argWd m c := V_main_arg4 m c

/-! ## The same, index by index -/

/-- The state's columns, permuted: position `j` holds column `evensOdds j`. -/
theorem arrH_apply (c : Dev nD) (b : Fin 16384) (j : Fin 2048) :
    arrH m c (ix2 b j) = argH m c (ix2 b (evensOdds j)) := by
  rw [arrH_eq]
  refine (gather_cols_apply (R := 16384) (C := 2048) (K := 2048) (by decide)
    gather_S16384x2048_S2048x1_S16384x2048_0_1_n_n_1_1_163841 rfl rfl rfl rfl rfl rfl rfl (argH m c) (startCol permWords) b j).trans ?_
  exact congrArg (fun z => argH m c (ix2 b z)) (Fin.ext (startCol_permWords_clamped j))

/-- The injection weights' rows, permuted. -/
theorem arrWi_apply (c : Dev nD) (j k : Fin 2048) :
    arrWi m c (ix2 j k) = argWi m c (ix2 (evensOdds j) k) := by
  rw [arrWi_eq]
  show Host.gather gather_S2048x2048_S2048x1_S2048x2048_1_0_n_n_0_1_12048 (argWi m c) (startCol permWords) (ix2 j k) = _
  refine (gather_rows_apply (R := 2048) (C := 2048) (K := 2048) (by decide)
    gather_S2048x2048_S2048x1_S2048x2048_1_0_n_n_0_1_12048 rfl rfl rfl rfl rfl rfl rfl (argWi m c) (startCol permWords) j k).trans ?_
  exact congrArg (fun z => argWi m c (ix2 z k)) (Fin.ext (startCol_permWords_clamped j))

/-- The injection bias, permuted, as a row. -/
theorem arrBi_apply (c : Dev nD) (j : Fin 2048) :
    arrBi m c (ix2 (0 : Fin 1) j) = argBi m c (ix1 (evensOdds j)) := by
  rw [arrBi_eq, shapeCast_a_1a_apply]
  refine (gather_vec_apply (N := 2048) (K := 2048) (by decide)
    gather_S2048_S2048x1_S2048_n_0_n_n_0_1_1 rfl rfl rfl rfl rfl rfl rfl (argBi m c) (startCol permWords) j).trans ?_
  exact congrArg (fun z => argBi m c (ix1 z)) (Fin.ext (startCol_permWords_clamped j))

/-- The angle weights, narrowed: the same extended reals. -/
theorem arrWa_apply (c : Dev nD) (i : S1024x2048.Idx) : arrWa m c i = argWa m c i := by
  rw [arrWa_eq]; rfl

/-- The angle bias as a row. -/
theorem arrBa_apply (c : Dev nD) (q : Fin 1024) : arrBa m c (ix2 (0 : Fin 1) q) = argBa m c (ix1 q) := by
  rw [arrBa_eq, shapeCast_a_1a_apply]

/-- The decay bias as a 1×1 array. -/
theorem arrBd_apply (c : Dev nD) : arrBd m c (ix2 (0 : Fin 1) (0 : Fin 1)) = argBd m c (ix1 (0 : Fin 1)) := by
  rw [arrBd_eq, shapeCast_a_1a_apply]

/-- The argsort of the table is the inverse permutation: entry `v` is the position of column `v`. -/
theorem invWords_apply (c : Dev nD) (v : Fin 2048) :
    (V m c main_v11 : IVec S2048 32) (ix1 v) = BitVec.ofNat 32 (evensOdds.symm v).val := by
  rw [invWords_eq]
  exact argsort_of_perm (n := 2048) (by norm_num) evensOdds comparator_i32_i32_d0 (fun _ _ => rfl) permWords
    (iotaInDim S2048 32 0) (fun j => by rw [eq_ix1 j]; exact permWords_apply (j 0)) (fun _ => rfl) (ix1 v)

theorem startCol_invWords_clamped (c : Dev nD) (v : Fin 2048) :
    min (startCol (V m c main_v11 : IVec S2048 32) (ix2 v (0 : Fin 1))).toInt.toNat (2048 - 1) = (evensOdds.symm v).val := by
  rw [startCol_apply _ v _ (evensOdds.symm v).isLt (invWords_apply m c v), clamp_word _ (evensOdds.symm v).isLt]

end

end Cert.Givens.Kernel

end
-- ==== Proof.KValue.lean ====
/-
  The kernel's result is the layer's value.

  After the pallas_call the host gathers the columns of the permuted result through the argsort of the table, that
  is through the inverse permutation: column `v` of the result is column `evensOdds⁻¹ v` of the permuted result.
  An even column `v = 2p` sits at position `p` of the first half, whose formula reads the state at positions `p`
  and `p + 1024`, that is at columns `2p` and `2p + 1`, and the injection weights at row `evensOdds p = v`; an odd
  column `v = 2p + 1` sits at position `1024 + p` of the second half. Either way this is the layer's value at `v`.
-/
import proofs.«425456_j53661321396647_3_alg».proof.Proof.Gen.KernelIdeal.Frame
import proofs.«425456_j53661321396647_3_alg».proof.Proof.KFinal
import proofs.«425456_j53661321396647_3_alg».proof.Proof.KPrefix
import proofs.«425456_j53661321396647_3_alg».proof.Proof.Spec
import Idealize.ShloMosaic.Lib.StableHlo.Run
import Idealize.ShloMosaic.Lib.ValueIdx

noncomputable section

open scoped BigOperators

namespace Cert.Givens.Kernel

open Idealize.ShloMosaic Idealize.ShloMosaic.TcCoe Idealize.ShloMosaic.ValueIdx Idealize.ShloMosaic.StableHlo Idealize.SL.Sem
open Cert.KernelIdeal Cert.KernelIdeal.Gen Cert.Givens Cert.Lib.GatherAxis

/-! ## "Evens, then odds" at the two halves -/

theorem eoFwd_left (n : Nat) (h : n < 1024) : eoFwd (⟨n, by omega⟩ : Fin 2048) = (⟨2 * n, by omega⟩ : Fin 2048) := by
  unfold eoFwd
  rw [dif_pos (show (⟨n, by omega⟩ : Fin 2048).val < 1024 from h)]

theorem eoFwd_right (n : Nat) (h : n < 1024) : eoFwd (⟨n + 1024, by omega⟩ : Fin 2048) = (⟨2 * n + 1, by omega⟩ : Fin 2048) := by
  unfold eoFwd
  rw [dif_neg (show ¬ (⟨n + 1024, by omega⟩ : Fin 2048).val < 1024 from by show ¬ n + 1024 < 1024; omega)]
  exact Fin.ext (by show 2 * (n + 1024 - 1024) + 1 = 2 * n + 1; omega)

/-! ## The permuted result at the two halves -/

section perm
variable (a0 a1 : FVec Ideal S16384x2048 .f32) (a2 : FVec Ideal S1024x2048 .bf16) (a3 : FVec Ideal S1x1024 .f32)
  (a4 : FVec Ideal S1x2048 .f32) (a5 : FVec Ideal S1x1 .f32) (a6 : FVec Ideal S2048x2048 .bf16)
  (a7 : FVec Ideal S1x2048 .f32)

theorem pOut_left (b : Fin 16384) (q : Fin 1024) :
    pOut a0 a1 a2 a3 a4 a5 a6 a7 (ix2 b (⟨q.val, by omega⟩ : Fin 2048)) = pLeft a0 a1 a2 a3 a4 a5 a6 a7 b q := by
  unfold pOut
  rw [dif_pos (show ((ix2 b (⟨q.val, by omega⟩ : Fin 2048)) 1).val < 1024 from q.isLt)]

theorem pOut_right (b : Fin 16384) (q : Fin 1024) :
    pOut a0 a1 a2 a3 a4 a5 a6 a7 (ix2 b (⟨q.val + 1024, by omega⟩ : Fin 2048)) = pRight a0 a1 a2 a3 a4 a5 a6 a7 b q := by
  unfold pOut
  rw [dif_neg (show ¬ ((ix2 b (⟨q.val + 1024, by omega⟩ : Fin 2048)) 1).val < 1024 from by show ¬ q.val + 1024 < 1024; omega)]
  exact congrArg (pRight a0 a1 a2 a3 a4 a5 a6 a7 b) (Fin.ext (by show q.val + 1024 - 1024 = q.val; omega))

end perm

section
variable (m : (ℓ : Loc nD τ sig) → Buf (Elt Ideal) ℓ)

/-! ## The permuted formulas over the arguments -/

theorem pAngle_args (c : Dev nD) (b : Fin 16384) (q : Fin 1024) :
    pAngle (arrX m c) (arrWa m c) (arrBa m c) b q = angle (argX m c) (argWa m c) (argBa m c) b q := by
  unfold pAngle angle
  rw [arrBa_apply, arrX_eq]
  refine congrArg (· + argBa m c (ix1 q)) (Finset.sum_congr rfl fun k _ => ?_)
  rw [arrWa_apply]

theorem pGate_args (c : Dev nD) (b : Fin 16384) :
    pGate (arrX m c) (arrWd m c) (arrBd m c) b = gate (argX m c) (argWd m c) (argBd m c) b := by
  unfold pGate gate
  rw [arrBd_apply, arrX_eq, arrWd_eq]

theorem pInject_args (c : Dev nD) (b : Fin 16384) (j : Fin 2048) :
    pInject (arrX m c) (arrWi m c) (arrBi m c) b j = inject (argX m c) (argWi m c) (argBi m c) b (evensOdds j) := by
  unfold pInject inject
  rw [arrBi_apply, arrX_eq]
  refine congrArg (· + argBi m c (ix1 (evensOdds j))) (Finset.sum_congr rfl fun k _ => ?_)
  rw [arrWi_apply]

/-- Column `evensOdds⁻¹ v` of the permuted result is the layer's value at column `v`. -/
theorem permResult_at (c : Dev nD) (b : Fin 16384) (v : Fin 2048) :
    permResult m c (ix2 b (evensOdds.symm v))
      = out (argX m c) (argH m c) (argWa m c) (argBa m c) (argWd m c) (argBd m c) (argWi m c) (argBi m c) (ix2 b v) := by
  rw [out_apply, evensOdds_symm_apply]
  have hv := v.isLt
  unfold rot
  by_cases h : v.val % 2 = 0
  · rw [if_pos h]
    have hσ : eoInv v = (⟨(⟨v.val / 2, by omega⟩ : Fin 1024).val, by show v.val / 2 < 2048; omega⟩ : Fin 2048) := by
      unfold eoInv; rw [dif_pos h]
    rw [hσ]
    show pOut (arrX m c) (arrH m c) (arrWa m c) (arrBa m c) (arrWd m c) (arrBd m c) (arrWi m c) (arrBi m c) _ = _
    rw [pOut_left]
    unfold pLeft rotA
    rw [pGate_args, pAngle_args, pInject_args, arrH_apply, arrH_apply]
    simp only [evensOdds_apply]
    rw [eoFwd_left (v.val / 2) (by omega), eoFwd_right (v.val / 2) (by omega)]
    have e : (⟨2 * (v.val / 2), by omega⟩ : Fin 2048) = v := Fin.ext (by show 2 * (v.val / 2) = v.val; omega)
    rw [e]
  · rw [if_neg h]
    have hσ : eoInv v = (⟨(⟨v.val / 2, by omega⟩ : Fin 1024).val + 1024, by show v.val / 2 + 1024 < 2048; omega⟩ : Fin 2048) := by
      unfold eoInv; rw [dif_neg h]
      exact Fin.ext (by show 1024 + v.val / 2 = v.val / 2 + 1024; omega)
    rw [hσ]
    show pOut (arrX m c) (arrH m c) (arrWa m c) (arrBa m c) (arrWd m c) (arrBd m c) (arrWi m c) (arrBi m c) _ = _
    rw [pOut_right]
    unfold pRight rotB
    rw [pGate_args, pAngle_args, pInject_args, arrH_apply, arrH_apply]
    simp only [evensOdds_apply]
    rw [eoFwd_left (v.val / 2) (by omega), eoFwd_right (v.val / 2) (by omega)]
    have e : (⟨2 * (v.val / 2) + 1, by omega⟩ : Fin 2048) = v := Fin.ext (by show 2 * (v.val / 2) + 1 = v.val; omega)
    rw [e]

/-! ## The host operations after the call -/

/-- The lines after the call, from any contents `W` of the buffers: the result is the call's result array gathered by
    columns through the argsort's table (wrapped as every index table is). -/
theorem tail_of (W : Valuation τ sig (Elt Ideal)) :
    (StableHlo.after hostOps1 W (Proc.devRef .tc main_v45) : FVec Ideal S16384x2048 .f32)
      = Host.gather gather_S16384x2048_S2048x1_S16384x2048_0_1_n_n_1_1_163841
          (W (Proc.devRef .tc main_v38) : FVec Ideal S16384x2048 .f32) (startCol (W (Proc.devRef .tc main_v11) : IVec S2048 32)) := by
  after_results
  rfl

/-- The result buffer after the run. -/
theorem tail_v45 (c : Dev nD) :
    Pipeline.afterTail₀ cfgs (dats m) 0 (V0 m) [hostOps1] c main_v45
      = Host.gather gather_S16384x2048_S2048x1_S16384x2048_0_1_n_n_1_1_163841
          ((dats m 0 c).arrAt 8 cfg0.N : FVec Ideal S16384x2048 .f32) (startCol (V m c main_v11 : IVec S2048 32)) := by
  unfold Pipeline.afterTail₀
  show StableHlo.after hostOps1 _ (Proc.devRef .tc main_v45) = _
  rw [tail_of]
  refine congrArg₂ (fun (x : FVec Ideal S16384x2048 .f32) (w : IVec S2048 32) =>
      Host.gather gather_S16384x2048_S2048x1_S16384x2048_0_1_n_n_1_1_163841 x (startCol w)) ?_ ?_
  · exact Pipeline.withArrays_arr spec0 launch0.win.arr_inj c (V0 m c) _ (8 : Fin 9)
  · exact Pipeline.withArrays_of_ne _ c (V0 m c) _ main_v11 (by decide)

/-! ## The run, read -/

/-- The layer's value of the arguments as launched. -/
abbrev layerOut (c : Dev nD) : FVec Ideal S16384x2048 .f32 :=
  out (argX m c) (argH m c) (argWa m c) (argBa m c) (argWd m c) (argBd m c) (argWi m c) (argBi m c)

/-- The result buffer after the run is the layer's value. -/
theorem result_eq (c : Dev nD) :
    Pipeline.afterTail₀ cfgs (dats m) 0 (V0 m) [hostOps1] c main_v45 = layerOut m c := by
  rw [tail_v45, final8]
  funext i
  obtain ⟨b, v, rfl⟩ : ∃ (b : Fin 16384) (v : Fin 2048), i = ix2 b v := ⟨i 0, i 1, eq_ix2 i⟩
  refine (gather_cols_apply (R := 16384) (C := 2048) (K := 2048) (by decide)
    gather_S16384x2048_S2048x1_S16384x2048_0_1_n_n_1_1_163841 rfl rfl rfl rfl rfl rfl rfl (permResult m c)
    (startCol (V m c main_v11 : IVec S2048 32)) b v).trans ?_
  rw [show (⟨min (startCol (V m c main_v11 : IVec S2048 32) (ix2 v (0 : Fin 1))).toInt.toNat (2048 - 1), by omega⟩ : Fin 2048)
      = evensOdds.symm v from Fin.ext (startCol_invWords_clamped m c v)]
  exact permResult_at m c b v

/-- Every weakly fair execution of the kernel's program terminates with the result buffer at the layer's value of
    the arguments, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v45) = layerOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v45 (Pipeline.mem_restRefs_of main_v45 (by decide) (by decide))).trans (result_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end

end Cert.Givens.Kernel

end
-- ==== Proof.RefValue.lean ====
/-
  The reference side of the bridge: the reference program's result, read index by index, is the layer's value.

  At batch row b and column v the reference computes  d(b) · r(b, v) + u(b, v)  where
    u(b, v) = (∑ k, x[b,k] · Wi[v,k]) + bi[v]                         (the injected input),
    d(b)    = 1 / (1 + e^(−((∑ k, x[b,k] · Wd[0,k]) + bd[0])))        (the decay gate, the logistic function),
    r(b, v) = the reshape [B, P, 2] → [B, 2P] of the pairs (ra, rb) joined along a last axis of extent 2,
              ra(b, p) = cos θ · h[b,2p] − sin θ · h[b,2p+1],  rb(b, p) = sin θ · h[b,2p] + cos θ · h[b,2p+1],
              θ = θ(b, p) = (∑ k, x[b,k] · Wa[p,k]) + ba[p].
  Row-major, column v of [B, 2P] is pair v / 2, component v mod 2, so r(b, v) is ra(b, v/2) at an even column and
  rb(b, v/2) at an odd one. The weights enter transposed and the transposition is undone where it is read.
-/
import proofs.«425456_j53661321396647_3_alg».proof.Proof.Gen.ReferenceIdeal.Read
import proofs.«425456_j53661321396647_3_alg».proof.Proof.Spec
import Idealize.ShloMosaic.Lib.ValueIdx
import Idealize.ShloMosaic.Lib.Pipeline.Value

noncomputable section

open scoped BigOperators

namespace Cert.Givens.Ref

open Idealize.ShloMosaic Idealize.ShloMosaic.ValueIdx Cert.Givens
open Cert.ReferenceIdeal Cert.ReferenceIdeal.Read

/-- The word 0x3F800000 is the single-precision pattern of 1. -/
theorem ofBits_one_f32 : Ideal.ofBits .f32 0x3F800000#32 = 1 := by
  simp [Ideal.ofBits, Ideal.ieee, -EReal.coe_mul]; norm_num

section
variable (x0 x1 : FVec Ideal SX .f32) (x2 : FVec Ideal SWa .f32) (x3 : FVec Ideal Sba .f32)
  (x4 : FVec Ideal SWd .f32) (x5 : FVec Ideal Sbd .f32) (x6 : FVec Ideal SWi .f32) (x7 : FVec Ideal Sbi .f32)

/-! ## The three affine maps of the input -/

/-- The angles: x · Waᵀ + ba at (b, p). -/
theorem v4_apply (b : Fin 16384) (p : Fin 1024) :
    val_main_v4 (F := Ideal) x0 x2 x3 (ix2 b p) = angle x0 x2 x3 b p := by
  rw [val_main_v4_apply, val_main_v1_apply, val_main_v3_apply, val_main_v2_apply]
  simp only [val_main_v0_apply]
  have e0 : ∀ k : Fin 2048, lidx_main_v1 (ix2 b p) k = ix2 b k := fun k =>
    funext fun a => by match a with | ⟨0, _⟩ => rfl | ⟨1, _⟩ => rfl
  have e1 : ∀ k : Fin 2048, idx_main_v0 (ridx_main_v1 (ix2 b p) k) = ix2 p k := fun k =>
    funext fun a => by match a with | ⟨0, _⟩ => rfl | ⟨1, _⟩ => rfl
  have e2 : idx_main_v2 (idx_main_v3 (ix2 b p)) = ix1 p :=
    funext fun a => by match a with | ⟨0, _⟩ => rfl
  simp only [e0, e1, e2]
  rfl

/-- The injected input: x · Wiᵀ + bi at (b, v). -/
theorem v20_apply (b : Fin 16384) (v : Fin 2048) :
    val_main_v20 (F := Ideal) x0 x6 x7 (ix2 b v) = inject x0 x6 x7 b v := by
  rw [val_main_v20_apply, val_main_v17_apply, val_main_v19_apply, val_main_v18_apply]
  simp only [val_main_v16_apply]
  have e0 : ∀ k : Fin 2048, lidx_main_v17 (ix2 b v) k = ix2 b k := fun k =>
    funext fun a => by match a with | ⟨0, _⟩ => rfl | ⟨1, _⟩ => rfl
  have e1 : ∀ k : Fin 2048, idx_main_v16 (ridx_main_v17 (ix2 b v) k) = ix2 v k := fun k =>
    funext fun a => by match a with | ⟨0, _⟩ => rfl | ⟨1, _⟩ => rfl
  have e2 : idx_main_v18 (idx_main_v19 (ix2 b v)) = ix1 v :=
    funext fun a => by match a with | ⟨0, _⟩ => rfl
  simp only [e0, e1, e2]
  rfl

/-- The gate's argument: x · Wdᵀ + bd at (b, 0). -/
theorem v9_apply (b : Fin 16384) :
    val_main_v9 (F := Ideal) x0 x4 x5 (ix2 b (0 : Fin 1))
      = (∑ k : Fin 2048, x0 (ix2 b k) * x4 (ix2 (0 : Fin 1) k)) + x5 (ix1 (0 : Fin 1)) := by
  rw [val_main_v9_apply, val_main_v6_apply, val_main_v8_apply, val_main_v7_apply]
  simp only [val_main_v5_apply]
  have e0 : ∀ k : Fin 2048, lidx_main_v6 (ix2 b (0 : Fin 1)) k = ix2 b k := fun k =>
    funext fun a => by match a with | ⟨0, _⟩ => rfl | ⟨1, _⟩ => rfl
  have e1 : ∀ k : Fin 2048, idx_main_v5 (ridx_main_v6 (ix2 b (0 : Fin 1)) k) = ix2 (0 : Fin 1) k := fun k =>
    funext fun a => by match a with | ⟨0, _⟩ => rfl | ⟨1, _⟩ => rfl
  have e2 : idx_main_v7 (idx_main_v8 (ix2 b (0 : Fin 1))) = ix1 (0 : Fin 1) :=
    funext fun a => by match a with | ⟨0, _⟩ => rfl
  simp only [e0, e1, e2]
  rfl

/-- The gate: 1 / (1 + e^(−z)) of that argument is the logistic function of it. -/
theorem v15_apply (b : Fin 16384) :
    val_main_v15 (F := Ideal) x0 x4 x5 (ix2 b (0 : Fin 1)) = gate x0 x4 x5 b := by
  rw [val_main_v15_apply, val_main_v14_apply, val_main_cst_0_apply, val_main_v13_apply, val_main_v12_apply,
    val_main_cst_apply, val_main_v11_apply, val_main_v10_apply, v9_apply]
  simp only [Ideal.ofBits_def, ofBits_one_f32, Ideal.hostDivf_def, Ideal.addf_def, Ideal.hostUnary_exp_def,
    Ideal.hostNegf_def, Ideal.negf_def]
  rfl

/-! ## The rotated pairs -/

/-- The first component of pair p of the state: the slice [.., .., 0] of its reshape to pairs is column 2p. -/
theorem v25_apply (b : Fin 16384) (p : Fin 1024) :
    val_main_v25 (F := Ideal) x1 (ix2 b p) = x1 (ix2 b (⟨2 * p.val, by omega⟩ : Fin 2048)) := by
  rw [val_main_v25_apply, val_main_v24_apply, val_main_v21_apply]
  congr 1
  funext a
  have hb := b.isLt
  have hp := p.isLt
  match a with
  | ⟨0, _⟩ =>
    refine Fin.ext ?_
    show ((((b.val * 1024 + p.val) / 1024) * 1024 + (b.val * 1024 + p.val) / 1 % 1024) * 2 + 0) / 2048 = b.val
    omega
  | ⟨1, _⟩ =>
    refine Fin.ext ?_
    show ((((b.val * 1024 + p.val) / 1024) * 1024 + (b.val * 1024 + p.val) / 1 % 1024) * 2 + 0) % 2048 = 2 * p.val
    omega

/-- The second component of pair p of the state: the slice [.., .., 1] of its reshape to pairs is column 2p + 1. -/
theorem v27_apply (b : Fin 16384) (p : Fin 1024) :
    val_main_v27 (F := Ideal) x1 (ix2 b p) = x1 (ix2 b (⟨2 * p.val + 1, by omega⟩ : Fin 2048)) := by
  rw [val_main_v27_apply, val_main_v26_apply, val_main_v21_apply]
  congr 1
  funext a
  have hb := b.isLt
  have hp := p.isLt
  match a with
  | ⟨0, _⟩ =>
    refine Fin.ext ?_
    show ((((b.val * 1024 + p.val) / 1024) * 1024 + (b.val * 1024 + p.val) / 1 % 1024) * 2 + (1 + 0)) / 2048 = b.val
    omega
  | ⟨1, _⟩ =>
    refine Fin.ext ?_
    show ((((b.val * 1024 + p.val) / 1024) * 1024 + (b.val * 1024 + p.val) / 1 % 1024) * 2 + (1 + 0)) % 2048 = 2 * p.val + 1
    omega

/-- cos θ · h[b,2p] − sin θ · h[b,2p+1]. -/
theorem v30_apply (b : Fin 16384) (p : Fin 1024) :
    val_main_v30 (F := Ideal) x0 x1 x2 x3 (ix2 b p) = rotA x0 x1 x2 x3 b p := by
  rw [val_main_v30_apply, val_main_v28_apply, val_main_v29_apply, val_main_v22_apply, val_main_v23_apply,
    v4_apply, v25_apply, v27_apply]
  rfl

/-- sin θ · h[b,2p] + cos θ · h[b,2p+1]. -/
theorem v33_apply (b : Fin 16384) (p : Fin 1024) :
    val_main_v33 (F := Ideal) x0 x1 x2 x3 (ix2 b p) = rotB x0 x1 x2 x3 b p := by
  rw [val_main_v33_apply, val_main_v31_apply, val_main_v32_apply, val_main_v22_apply, val_main_v23_apply,
    v4_apply, v25_apply, v27_apply]
  rfl

/-! ## Joining the pairs and flattening them -/

/-- Component 0 of a joined pair is the first piece's element. -/
theorem v36_apply_fst (b : Fin 16384) (p : Fin 1024) :
    val_main_v36 (F := Ideal) x0 x1 x2 x3 (ix3 b p (0 : Fin 2)) = rotA x0 x1 x2 x3 b p := by
  unfold val_main_v36
  refine (concatenate_pair_apply_left (s₁ := S16384x1024x1) (s₂ := S16384x1024x1) _ _ _ _ (ix3 b p (0 : Fin 2)) rfl (ix3 b p (0 : Fin 1)) (fun a => by
    match a with
    | ⟨0, _⟩ => rfl
    | ⟨1, _⟩ => rfl
    | ⟨2, _⟩ => rfl)).trans ?_
  rw [val_main_v34_apply]
  have e : idx_main_v34 (ix3 b p (0 : Fin 1)) = ix2 b p :=
    funext fun a => by match a with | ⟨0, _⟩ => rfl | ⟨1, _⟩ => rfl
  rw [e, v30_apply]

/-- Component 1 of a joined pair is the second piece's element. -/
theorem v36_apply_snd (b : Fin 16384) (p : Fin 1024) :
    val_main_v36 (F := Ideal) x0 x1 x2 x3 (ix3 b p (1 : Fin 2)) = rotB x0 x1 x2 x3 b p := by
  unfold val_main_v36
  refine (concatenate_pair_apply_right (s₁ := S16384x1024x1) (s₂ := S16384x1024x1) _ _ _ _ (ix3 b p (1 : Fin 2)) rfl rfl (ix3 b p (0 : Fin 1)) (fun a ha => by
    match a with
    | ⟨0, _⟩ => rfl
    | ⟨1, _⟩ => rfl
    | ⟨2, _⟩ => exact absurd rfl ha) rfl).trans ?_
  rw [val_main_v35_apply]
  have e : idx_main_v35 (ix3 b p (0 : Fin 1)) = ix2 b p :=
    funext fun a => by match a with | ⟨0, _⟩ => rfl | ⟨1, _⟩ => rfl
  rw [e, v33_apply]

/-- Row-major, column v of the flattened pairs is component v mod 2 of pair v / 2. -/
theorem idx_v37 (b : Fin 16384) (v : Fin 2048) :
    idx_main_v37 (ix2 b v) = ix3 b (⟨v.val / 2, by omega⟩ : Fin 1024) (⟨v.val % 2, by omega⟩ : Fin 2) := by
  funext a
  have hb := b.isLt
  have hv := v.isLt
  match a with
  | ⟨0, _⟩ =>
    refine Fin.ext ?_
    show (b.val * 2048 + v.val) / 2048 = b.val
    omega
  | ⟨1, _⟩ =>
    refine Fin.ext ?_
    show (b.val * 2048 + v.val) / 2 % 1024 = v.val / 2
    omega
  | ⟨2, _⟩ =>
    refine Fin.ext ?_
    show (b.val * 2048 + v.val) % 2 = v.val % 2
    omega

/-- The rotated state at column v. -/
theorem v37_apply (b : Fin 16384) (v : Fin 2048) :
    val_main_v37 (F := Ideal) x0 x1 x2 x3 (ix2 b v) = rot x0 x1 x2 x3 b v := by
  rw [val_main_v37_apply, idx_v37]
  unfold rot
  by_cases h : v.val % 2 = 0
  · rw [if_pos h]
    have e : (⟨v.val % 2, by omega⟩ : Fin 2) = 0 := Fin.ext h
    rw [e, v36_apply_fst]
  · rw [if_neg h]
    have e : (⟨v.val % 2, by omega⟩ : Fin 2) = 1 := Fin.ext (by show v.val % 2 = 1; omega)
    rw [e, v36_apply_snd]

end

/-! ## The result -/

/-- The reference's result is the layer's value: index by index both are gate b · rot b v + inject b v. -/
theorem ref_eq_out (x0 x1 : FVec Ideal SX .f32) (x2 : FVec Ideal SWa .f32) (x3 : FVec Ideal Sba .f32)
    (x4 : FVec Ideal SWd .f32) (x5 : FVec Ideal Sbd .f32) (x6 : FVec Ideal SWi .f32) (x7 : FVec Ideal Sbi .f32) :
    Cert.ReferenceIdeal.Read.val_main_v40 (F := Ideal) x0 x1 x2 x3 x4 x5 x6 x7 = Cert.Givens.out x0 x1 x2 x3 x4 x5 x6 x7 := by
  funext i
  obtain ⟨b, v, rfl⟩ : ∃ (b : Fin 16384) (v : Fin 2048), i = ix2 b v := ⟨i 0, i 1, eq_ix2 i⟩
  rw [out_apply, val_main_v40_apply, val_main_v39_apply, val_main_v38_apply, v20_apply, v37_apply]
  have e : idx_main_v38 (ix2 b v) = ix2 b (0 : Fin 1) :=
    funext fun a => by match a with | ⟨0, _⟩ => rfl | ⟨1, _⟩ => rfl
  rw [e, v15_apply]
  rfl

end Cert.Givens.Ref

end
-- ==== Proof.lean ====
/-
  A single step of a state-space layer whose hidden state is rotated pair by pair (Givens rotations):

      out[b, v] = gate b · rot b v + inject b v,

  with `angle = x·Waᵀ + ba`, `gate = logistic (x·Wdᵀ + bd)`, `inject = x·Wiᵀ + bi`, and `rot` the state's pairs
  `(h[b,2p], h[b,2p+1])` rotated by `angle b p` (the specification: Proof/Spec.lean).

  The reference computes this in the natural, interleaved column order: it views the state as `[B, P, 2]`, rotates,
  joins the two components along the last axis and flattens (Proof/RefValue.lean, over the reference's generated
  run and read-at-an-index lemmas).

  The kernel avoids strided lane access: the host permutes the state's columns, the injection weights' rows and the
  injection bias to "evens, then odds" (three gathers through one table), the pallas_call works row block by row
  block on two contiguous halves — first components in columns 0..1023, second in 1024..2047 — with the two big
  products on the matrix unit and the one-row decay projection as a lane sum, and the host un-permutes the result's
  columns by a gather through the table's argsort. On the extended reals the narrowing of the matrix operands is the
  identity, a product onto a zero accumulator is the host's product, the lane sum is the host's sum, and the
  kernel's one logistic operation is the reference's `1 / (1 + e^(−z))`; the argsort of a table that lists a
  permutation is the inverse permutation (Proof/LibArgsortPerm.lean), so gathering through it undoes the first
  permutation (Proof/KPrefix.lean, Proof/KBody.lean, Proof/KFinal.lean, Proof/KValue.lean). No law of arithmetic beyond
  these identifications is used, so the precondition (finite inputs) is not opened.

  The three frames: the two kernels' are generated whole; the reference's is its generated run with the result
  dropped. The idealization rewrote nothing, so `preserves` is `True`.
-/
import proofs.«425456_j53661321396647_3_alg».proof.Defs
import proofs.«425456_j53661321396647_3_alg».proof.Proof.Gen.Kernel
import proofs.«425456_j53661321396647_3_alg».proof.Proof.Gen.Kernel.Skeleton
import proofs.«425456_j53661321396647_3_alg».proof.Proof.Gen.Kernel.Launch
import proofs.«425456_j53661321396647_3_alg».proof.Proof.Gen.Kernel.Points
import proofs.«425456_j53661321396647_3_alg».proof.Proof.Gen.Kernel.Frame
import proofs.«425456_j53661321396647_3_alg».proof.Proof.Gen.KernelIdeal
import proofs.«425456_j53661321396647_3_alg».proof.Proof.Gen.KernelIdeal.Skeleton
import proofs.«425456_j53661321396647_3_alg».proof.Proof.Gen.KernelIdeal.Launch
import proofs.«425456_j53661321396647_3_alg».proof.Proof.Gen.KernelIdeal.Points
import proofs.«425456_j53661321396647_3_alg».proof.Proof.Gen.KernelIdeal.Frame
import proofs.«425456_j53661321396647_3_alg».proof.Proof.Gen.ReferenceIdeal
import proofs.«425456_j53661321396647_3_alg».proof.Proof.Gen.Pre_finite_inputs
import proofs.«425456_j53661321396647_3_alg».proof.Proof.Gen.ReferenceIdeal.Run
import proofs.«425456_j53661321396647_3_alg».proof.Proof.Gen.ReferenceIdeal.Read
import proofs.«425456_j53661321396647_3_alg».proof.Proof.KValue
import proofs.«425456_j53661321396647_3_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer's value of the (agreeing) arguments. -/
theorem algebraic : Cert.algebraic_KernelIdeal_ReferenceIdeal := by
  intro m ρ m' ρ' _ hagree
  refine ⟨fun c => Cert.Givens.Kernel.layerOut m c, Cert.Givens.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact (Cert.ReferenceIdeal.Read.val_main_v40_eq (F := Ideal) _ _ _ _ _ _ _ _).trans
    (Cert.Givens.Ref.ref_eq_out _ _ _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
